-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x32x32 : Shape := ⟨5, ![4, 128, 128, 32, 32]⟩
abbrev S4x128x128x32 : Shape := ⟨4, ![4, 128, 128, 32]⟩
abbrev S_ : Shape := ⟨0, ![]⟩

class Facts : Prop where
  bcast_S_S4x128x128x32x32 : S_.BroadcastsInDim S4x128x128x32x32 (![] : Fin 0 → Fin S4x128x128x32x32.rank)
  reducesTo_S4x128x128x32x32_S_d0_1_2_3_4 : S4x128x128x32x32.ReducesTo [0, 1, 2, 3, 4] S_
  h_S_ : 0 < S_.numel
  bcast_S_S4x128x128x32 : S_.BroadcastsInDim S4x128x128x32 (![] : Fin 0 → Fin S4x128x128x32.rank)
  reducesTo_S4x128x128x32_S_d0_1_2_3 : S4x128x128x32.ReducesTo [0, 1, 2, 3] S_

variable [Facts]

def fn {F : FTy → Type} [FloatOps F] (main_arg0 : FVec F S4x128x128x32x32 .f32) (main_arg1 : IVec S4x128x128x32 32) : IVec S_ 1 :=
  let main_v0 : FVec F S4x128x128x32x32 .f32 := Host.absf main_arg0
  let main_cst : FVec F S_ .f32 := constant S_ .f32 0x7F800000#32
  let main_v1 : FVec F S4x128x128x32x32 .f32 := broadcastInDim S4x128x128x32x32 ![] bcast_S_S4x128x128x32x32 main_cst
  let main_v2 : IVec S4x128x128x32x32 1 := cmpf .olt main_v0 main_v1
  let main_c : IVec S_ 1 := constantI S_ 1 1#1
  let main_v3 : IVec S_ 1 := (fun x v => Host.reduce IntOp.andi x v reducesTo_S4x128x128x32x32_S_d0_1_2_3_4 h_S_) main_v2 main_c
  let main_c_0 : IVec S_ 32 := constantI S_ 32 0#32
  let main_v4 : IVec S4x128x128x32 32 := broadcastInDim S4x128x128x32 ![] bcast_S_S4x128x128x32 main_c_0
  let main_v5 : IVec S4x128x128x32 1 := cmpi .eq main_arg1 main_v4
  let main_c_1 : IVec S_ 32 := constantI S_ 32 1#32
  let main_v6 : IVec S4x128x128x32 32 := broadcastInDim S4x128x128x32 ![] bcast_S_S4x128x128x32 main_c_1
  let main_v7 : IVec S4x128x128x32 1 := cmpi .eq main_arg1 main_v6
  let main_v8 : IVec S4x128x128x32 1 := ori main_v5 main_v7
  let main_c_2 : IVec S_ 1 := constantI S_ 1 1#1
  let main_v9 : IVec S_ 1 := (fun x v => Host.reduce IntOp.andi x v reducesTo_S4x128x128x32_S_d0_1_2_3 h_S_) main_v8 main_c_2
  let main_v10 : IVec S_ 1 := andi main_v3 main_v9
  main_v10
-- ==== Kernel.lean ====
abbrev S4x128x128x32x32 : Shape := ⟨5, ![4, 128, 128, 32, 32]⟩
abbrev S4x128x128x32 : Shape := ⟨4, ![4, 128, 128, 32]⟩
abbrev S128x128 : Shape := ⟨2, ![128, 128]⟩
abbrev S_ : Shape := ⟨0, ![]⟩
abbrev S128x128x1 : Shape := ⟨3, ![128, 128, 1]⟩
abbrev S8x128 : Shape := ⟨2, ![8, 128]⟩
abbrev S1x16x128x32x32 : Shape := ⟨5, ![1, 16, 128, 32, 32]⟩
abbrev S1x16x128x32 : Shape := ⟨4, ![1, 16, 128, 32]⟩
abbrev S16x128x1 : Shape := ⟨3, ![16, 128, 1]⟩
abbrev S1x16x128x1 : Shape := ⟨4, ![1, 16, 128, 1]⟩
abbrev S32x32 : Shape := ⟨2, ![32, 32]⟩
abbrev S1x1x1x32x32 : Shape := ⟨5, ![1, 1, 1, 32, 32]⟩
abbrev S16x128x32 : Shape := ⟨3, ![16, 128, 32]⟩
abbrev S128x32 : Shape := ⟨2, ![128, 32]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x16x128 : Shape := ⟨3, ![1, 16, 128]⟩

abbrev nBuf : Space → Nat
  | .hbm => 27
  | .vmem => 7
  | .smem => 0
  | _ => 0

abbrev bufTy : (tb : Table) → Fin (tcTables nBuf tb) → BufTy
  | .hbm, ⟨0, _⟩ => ⟨S4x128x128x32x32, .f32⟩
  | .hbm, ⟨1, _⟩ => ⟨S4x128x128x32, .i32⟩
  | .hbm, ⟨2, _⟩ => ⟨S128x128, .i32⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i32⟩
  | .hbm, ⟨7, _⟩ => ⟨S128x128, .i1⟩
  | .hbm, ⟨8, _⟩ => ⟨S128x128, .i1⟩
  | .hbm, ⟨9, _⟩ => ⟨S128x128, .f32⟩
  | .hbm, ⟨10, _⟩ => ⟨S128x128x1, .f32⟩
  | .hbm, ⟨11, _⟩ => ⟨S8x128, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x16x128x32x32, .f32⟩
  | .local _ .vmem, ⟨1, _⟩ => ⟨S1x16x128x32x32, .f32⟩
  | .local _ .vmem, ⟨2, _⟩ => ⟨S1x16x128x32, .i32⟩
  | .local _ .vmem, ⟨3, _⟩ => ⟨S1x16x128x32, .i32⟩
  | .local _ .vmem, ⟨4, _⟩ => ⟨S16x128x1, .f32⟩
  | .local _ .vmem, ⟨5, _⟩ => ⟨S16x128x1, .f32⟩
  | .local _ .vmem, ⟨6, _⟩ => ⟨S8x128, .f32⟩
  | _, _ => ⟨S4x128x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x128x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  inb_S8x128_S8x128_0_0 : ∀ a, (![0, 0] : Fin 2 → Nat) a + S8x128.size a ≤ S8x128.size a
  h_S8x128 : 0 < S8x128.numel
  inb_S1x16x128x32x32_S1x16x128x32x32_0_0_0_0_0 : ∀ a, (![0, 0, 0, 0, 0] : Fin 5 → Nat) a + S1x16x128x32x32.size a ≤ S1x16x128x32x32.size a
  h_S1x16x128x32x32 : 0 < S1x16x128x32x32.numel
  inb_S1x16x128x32_S1x16x128x32_0_0_0_0 : ∀ a, (![0, 0, 0, 0] : Fin 4 → Nat) a + S1x16x128x32.size a ≤ S1x16x128x32.size a
  h_S1x16x128x32 : 0 < S1x16x128x32.numel
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  shapeCasts_S16x128x1_S1x16x128x1 : S16x128x1.ShapeCasts S1x16x128x1
  iota_S32x32_d0_w32 : S32x32.Iotas .tc 32 [0]
  iota_S32x32_d1_w32 : S32x32.Iotas .tc 32 [1]
  natLt_1_32 : 1 < 32
  shapeCasts_S32x32_S1x1x1x32x32 : S32x32.ShapeCasts S1x1x1x32x32
  broadcasts_S1x1x1x32x32_S1x16x128x32x32 : S1x1x1x32x32.Broadcasts S1x16x128x32x32
  reduces_S1x16x128x32x32_S1x16x128x32 : S1x16x128x32x32.Reduces [3] S1x16x128x32
  transposes_S1x16x128x32x32_p0_1_2_4_3_S1x16x128x32x32 : S1x16x128x32x32.Transposes [0, 1, 2, 4, 3] S1x16x128x32x32
  broadcasts_S1x16x128x1_S1x16x128x32 : S1x16x128x1.Broadcasts S1x16x128x32
  reduces_S1x16x128x32_S16x128x32 : S1x16x128x32.Reduces [0] S16x128x32
  reduces_S16x128x32_S128x32 : S16x128x32.Reduces [0] S128x32
  reduces_S128x32_S128 : S128x32.Reduces [1] S128
  shapeCasts_S128_S128x1 : S128.ShapeCasts S128x1
  reduces_S128x1_S1 : S128x1.Reduces [0] S1
  shapeCasts_S1_S1x1 : S1.ShapeCasts S1x1
  reduces_S1x16x128x32_S1x16x128 : S1x16x128x32.Reduces [3] S1x16x128
  shapeCasts_S1x16x128_S1x16x128x1 : S1x16x128.ShapeCasts S1x16x128x1
  reduces_S1x16x128x1_S16x128x1 : S1x16x128x1.Reduces [0] S16x128x1
  reduces_S16x128x1_S128x1 : S16x128x1.Reduces [0] S128x1
  reduces_S128x1_S128 : S128x1.Reduces [1] S128
  iota_S8x128_d0_w32 : S8x128.Iotas .tc 32 [0]
  iota_S8x128_d1_w32 : S8x128.Iotas .tc 32 [1]
  broadcasts_S1x1_S8x128 : S1x1.Broadcasts S8x128
  shapeCasts_S8x128_S8x128 : S8x128.ShapeCasts S8x128
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x32x32.size a ≤ S4x128x128x32x32.size a
  hwx0_0 : ∀ i : grid0.Coords, EltTy.bits .f32 = 32 ∨ (Rect.block (s := S4x128x128x32x32) S1x16x128x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x32.size a ≤ S4x128x128x32.size a
  hwx0_1 : ∀ i : grid0.Coords, EltTy.bits .i32 = 32 ∨ (Rect.block (s := S4x128x128x32) S1x16x128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x1.size a ≤ S128x128x1.size a
  hwx0_2 : ∀ i : grid0.Coords, EltTy.bits .f32 = 32 ∨ (Rect.block (s := S128x128x1) S16x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_arg0) S1x16x128x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x128x32x32 : Shape := ⟨5, ![4, 128, 128, 32, 32]⟩
abbrev S4x128x128x32 : Shape := ⟨4, ![4, 128, 128, 32]⟩
abbrev S32 : Shape := ⟨1, ![32]⟩
abbrev S_ : Shape := ⟨0, ![]⟩
abbrev S32x1 : Shape := ⟨2, ![32, 1]⟩
abbrev S32x2 : Shape := ⟨2, ![32, 2]⟩
abbrev S128x128 : Shape := ⟨2, ![128, 128]⟩
abbrev S1x128x128x1 : Shape := ⟨4, ![1, 128, 128, 1]⟩
abbrev S4x128x128 : Shape := ⟨3, ![4, 128, 128]⟩
abbrev S1x128x128 : Shape := ⟨3, ![1, 128, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x128x128x32x32, .f32⟩
  | .hbm, ⟨1, _⟩ => ⟨S4x128x128x32, .i32⟩
  | .hbm, ⟨2, _⟩ => ⟨S4x128x128x32, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S32x1, .i32⟩
  | .hbm, ⟨20, _⟩ => ⟨S32x1, .i32⟩
  | .hbm, ⟨21, _⟩ => ⟨S32x2, .i32⟩
  | .hbm, ⟨22, _⟩ => ⟨S4x128x128x32, .f32⟩
  | .hbm, ⟨23, _⟩ => ⟨S4x128x128x32, .f32⟩
  | .hbm, ⟨24, _⟩ => ⟨S_, .f32⟩
  | .hbm, ⟨25, _⟩ => ⟨S4x128x128x32, .f32⟩
  | .hbm, ⟨26, _⟩ => ⟨S4x128x128x32, .f32⟩
  | .hbm, ⟨27, _⟩ => ⟨S_, .f32⟩
  | .hbm, ⟨28, _⟩ => ⟨S4x128x128x32, .f32⟩
  | .hbm, ⟨29, _⟩ => ⟨S4x128x128x32, .f32⟩
  | .hbm, ⟨30, _⟩ => ⟨S4x128x128x32, .f32⟩
  | .hbm, ⟨31, _⟩ => ⟨S4x128x128x32, .f32⟩
  | .hbm, ⟨32, _⟩ => ⟨S4x128x128x32, .f32⟩
  | .hbm, ⟨33, _⟩ => ⟨S4x128x128x32, .f32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .i1⟩
  | .hbm, ⟨41, _⟩ => ⟨S1x128x128x1, .i1⟩
  | .hbm, ⟨42, _⟩ => ⟨S_, .f32⟩
  | .hbm, ⟨43, _⟩ => ⟨S_, .f32⟩
  | .hbm, ⟨44, _⟩ => ⟨S4x128x128x32, .i1⟩
  | .hbm, ⟨45, _⟩ => ⟨S4x128x128x32, .f32⟩
  | .hbm, ⟨46, _⟩ => ⟨S4x128x128x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x128x128x32, .f32⟩
  | .hbm, ⟨55, _⟩ => ⟨S4x128x128x32, .i1⟩
  | .hbm, ⟨56, _⟩ => ⟨S_, .i32⟩
  | .hbm, ⟨57, _⟩ => ⟨S4x128x128x32, .i32⟩
  | .hbm, ⟨58, _⟩ => ⟨S4x128x128x32, .i1⟩
  | .hbm, ⟨59, _⟩ => ⟨S4x128x128x32, .i1⟩
  | .hbm, ⟨60, _⟩ => ⟨S4x128x128x32, .i1⟩
  | .hbm, ⟨61, _⟩ => ⟨S4x128x128x32, .i32⟩
  | .hbm, ⟨62, _⟩ => ⟨S_, .i32⟩
  | .hbm, ⟨63, _⟩ => ⟨S_, .i32⟩
  | .hbm, ⟨64, _⟩ => ⟨S4x128x128x32, .i1⟩
  | .hbm, ⟨65, _⟩ => ⟨S4x128x128x32, .i1⟩
  | .hbm, ⟨66, _⟩ => ⟨S4x128x128x32, .i1⟩
  | .hbm, ⟨67, _⟩ => ⟨S4x128x128x32, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4x128x128x32, .i1⟩
  | .hbm, ⟨74, _⟩ => ⟨S_, .i1⟩
  | .hbm, ⟨75, _⟩ => ⟨S4x128x128, .i1⟩
  | .hbm, ⟨76, _⟩ => ⟨S1x128x128, .i1⟩
  | .hbm, ⟨77, _⟩ => ⟨S4x128x128, .i1⟩
  | .hbm, ⟨78, _⟩ => ⟨S4x128x128, .i1⟩
  | .hbm, ⟨79, _⟩ => ⟨S4x128x128, .i32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S_, .f32⟩
  | _, _ => ⟨S4x128x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_8 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_9 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_10 : Ref sig .tc := ⟨.hbm, 80, rfl⟩
abbrev main_v44 : Ref sig .tc := ⟨.hbm, 81, rfl⟩
abbrev main_v45 : Ref sig .tc := ⟨.hbm, 82, rfl⟩
abbrev main_cst_11 : Ref sig .tc := ⟨.hbm, 83, rfl⟩
abbrev main_v46 : Ref sig .tc := ⟨.hbm, 84, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S_S4x128x128x32 : S_.BroadcastsInDim S4x128x128x32 (![] : Fin 0 → Fin S4x128x128x32.rank)
  bcast_S_S128x128 : S_.BroadcastsInDim S128x128 (![] : Fin 0 → Fin S128x128.rank)
  bcast_S128x128_S1x128x128x1_1_2 : S128x128.BroadcastsInDim S1x128x128x1 (![1, 2] : Fin 2 → Fin S1x128x128x1.rank)
  bcast_S1x128x128x1_S4x128x128x32_0_1_2_3 : S1x128x128x1.BroadcastsInDim S4x128x128x32 (![0, 1, 2, 3] : Fin 4 → Fin S4x128x128x32.rank)
  reducesTo_S4x128x128x32_S_d0_1_2_3 : S4x128x128x32.ReducesTo [0, 1, 2, 3] S_
  h_S_ : 0 < S_.numel
  reducesTo_S4x128x128x32x32_S4x128x128x32_d4 : S4x128x128x32x32.ReducesTo [4] S4x128x128x32
  natLt_1_32 : 1 < 32
  reducesTo_S4x128x128x32_S4x128x128_d3 : S4x128x128x32.ReducesTo [3] S4x128x128
  bcast_S128x128_S1x128x128_1_2 : S128x128.BroadcastsInDim S1x128x128 (![1, 2] : Fin 2 → Fin S1x128x128.rank)
  bcast_S1x128x128_S4x128x128_0_1_2 : S1x128x128.BroadcastsInDim S4x128x128 (![0, 1, 2] : Fin 3 → Fin S4x128x128.rank)
  reducesTo_S4x128x128_S_d0_1_2 : S4x128x128.ReducesTo [0, 1, 2] S_
  gather_S4x128x128x32x32_S32x2_S4x128x128x32_012_34_n_n_34_1_412812811_wf : GatherDims.WF S4x128x128x32x32 S32x2 S4x128x128x32 [0, 1, 2] [3, 4] [] [3, 4] [] 1 ![4, 128, 128, 1, 1]

variable [Facts₀]

def gather_S4x128x128x32x32_S32x2_S4x128x128x32_012_34_n_n_34_1_412812811 : GatherDims S4x128x128x32x32 S32x2 S4x128x128x32 where
  offsetDims := [0, 1, 2]
  collapsedSliceDims := [3, 4]
  operandBatchingDims := []
  startIndicesBatchingDims := []
  startIndexMap := [3, 4]
  indexVectorDim := 1
  sliceSizes := ![4, 128, 128, 1, 1]
  wf := gather_S4x128x128x32x32_S32x2_S4x128x128x32_012_34_n_n_34_1_412812811_wf

class Facts : Prop extends Facts₀ where

variable [Facts]
-- ==== Proof.Spec.lean ====
/-
  The mathematics both programs compute, stated once over the whole argument arrays.

  Inputs: `x`, a [4,128,128,32,32] array of extended reals (probabilities), and `g`, a [4,128,128,32] array of
  32-bit words (binary labels).  For a batch `b`, a pair `(i, j)` and a label position `k`:
    * the diagonal entry  `dg x b i j k = x[b,i,j,k,k]`,
    * the row maximum     `rmax x b i j k = max_l x[b,i,j,k,l]` (a fold of `max` from -∞),
    * the cross-entropy of a binary label: `-log p` when the label is 1, `-log (1 - p)` otherwise.
  Four totals over the off-diagonal pairs (`i ≠ j`): the summed cross-entropy `S0`, the number of positive
  labels `S1`, the number of positive labels whose diagonal entry attains the row maximum `S2`, and the number
  of pairs all of whose 32 positions are predicted correctly `S3`.  The three results are
  `S0 / 520192 / 4`, `S2 / S1` and `S3 / 65024`.

  The same four totals are also written block by block: the grid has 32 points `t`; point `t` sees batch
  `t / 8` and the sixteen rows `16 (t mod 8) + ii`.  `B0 … B3` are the totals of one block in block-local
  coordinates, `P0 … P3` the same in global coordinates.
-/
import Idealize.ShloMosaic.PureOps.Ideal
import Idealize.ShloMosaic.Lib.ValueIdx

noncomputable section

namespace Cert.Spec

open Idealize.ShloMosaic Idealize.ShloMosaic.ValueIdx

abbrev SX : Shape := ⟨5, ![4, 128, 128, 32, 32]⟩
abbrev SG : Shape := ⟨4, ![4, 128, 128, 32]⟩
abbrev BX : Shape := ⟨5, ![1, 16, 128, 32, 32]⟩
abbrev BG : Shape := ⟨4, ![1, 16, 128, 32]⟩
abbrev BO : Shape := ⟨3, ![16, 128, 1]⟩

/-- The f32 word of 1.0, read at the extended reals. -/
def one : EReal := Ideal.ofBits .f32 0x3F800000#32
/-- The f32 word of -∞, the start of every maximum. -/
def ninf : EReal := Ideal.ofBits .f32 0xFF800000#32

/-! ## Whole arrays -/

def dg (x : SX.Idx → EReal) (b : Fin 4) (i j : Fin 128) (k : Fin 32) : EReal := x (ix5 b i j k k)

def rmax (x : SX.Idx → EReal) (b : Fin 4) (i j : Fin 128) (k : Fin 32) : EReal :=
  (Finset.univ : Finset (Fin 32)).fold max ninf (fun l => x (ix5 b i j k l))

/-- Cross-entropy of one binary label. -/
def ce (x : SX.Idx → EReal) (g : SG.Idx → BitVec 32) (b : Fin 4) (i j : Fin 128) (k : Fin 32) : EReal :=
  if g (ix4 b i j k) = 1#32 then -(Ideal.log (dg x b i j k)) else -(Ideal.log (one - dg x b i j k))

def t0 (x : SX.Idx → EReal) (g : SG.Idx → BitVec 32) (b : Fin 4) (i j : Fin 128) (k : Fin 32) : EReal :=
  if i = j then 0 else ce x g b i j k
def t1 (g : SG.Idx → BitVec 32) (b : Fin 4) (i j : Fin 128) (k : Fin 32) : EReal :=
  if i ≠ j ∧ g (ix4 b i j k) = 1#32 then 1 else 0
def t2 (x : SX.Idx → EReal) (g : SG.Idx → BitVec 32) (b : Fin 4) (i j : Fin 128) (k : Fin 32) : EReal :=
  if i ≠ j ∧ g (ix4 b i j k) = 1#32 ∧ dg x b i j k = rmax x b i j k then 1 else 0
def t3 (x : SX.Idx → EReal) (g : SG.Idx → BitVec 32) (b : Fin 4) (i j : Fin 128) : EReal :=
  if i ≠ j ∧ ∀ k : Fin 32, (dg x b i j k = rmax x b i j k ↔ g (ix4 b i j k) = 1#32) then 1 else 0

def S0 (x : SX.Idx → EReal) (g : SG.Idx → BitVec 32) : EReal := ∑ b : Fin 4, ∑ i : Fin 128, ∑ j : Fin 128, ∑ k : Fin 32, t0 x g b i j k
def S1 (g : SG.Idx → BitVec 32) : EReal := ∑ b : Fin 4, ∑ i : Fin 128, ∑ j : Fin 128, ∑ k : Fin 32, t1 g b i j k
def S2 (x : SX.Idx → EReal) (g : SG.Idx → BitVec 32) : EReal := ∑ b : Fin 4, ∑ i : Fin 128, ∑ j : Fin 128, ∑ k : Fin 32, t2 x g b i j k
def S3 (x : SX.Idx → EReal) (g : SG.Idx → BitVec 32) : EReal := ∑ b : Fin 4, ∑ i : Fin 128, ∑ j : Fin 128, t3 x g b i j

/-- The three results. The divisors stay the f32 words both programs carry. -/
def LOSS (x : SX.Idx → EReal) (g : SG.Idx → BitVec 32) : EReal :=
  Ideal.div (Ideal.div (S0 x g) (Ideal.ofBits .f32 0x48FE0000#32)) (Ideal.ofBits .f32 0x40800000#32)
def SACC (x : SX.Idx → EReal) (g : SG.Idx → BitVec 32) : EReal := Ideal.div (S2 x g) (S1 g)
def MACC (x : SX.Idx → EReal) (g : SG.Idx → BitVec 32) : EReal := Ideal.div (S3 x g) (Ideal.ofBits .f32 0x477E0000#32)

/-! ## One block, in block-local coordinates -/

def dgB (xb : BX.Idx → EReal) (ii : Fin 16) (j : Fin 128) (k : Fin 32) : EReal := xb (ix5 0 ii j k k)
def rmaxB (xb : BX.Idx → EReal) (ii : Fin 16) (j : Fin 128) (k : Fin 32) : EReal :=
  (Finset.univ : Finset (Fin 32)).fold max ninf (fun l => xb (ix5 0 ii j k l))

def cb0 (xb : BX.Idx → EReal) (gb : BG.Idx → BitVec 32) (ob : BO.Idx → EReal) (ii : Fin 16) (j : Fin 128) (k : Fin 32) : EReal :=
  if ob (ix3 ii j 0) = 1 then
    (if gb (ix4 0 ii j k) = 1#32 then -(Ideal.log (dgB xb ii j k)) else -(Ideal.log (one - dgB xb ii j k)))
  else 0
def cb1 (gb : BG.Idx → BitVec 32) (ob : BO.Idx → EReal) (ii : Fin 16) (j : Fin 128) (k : Fin 32) : EReal :=
  if ob (ix3 ii j 0) = 1 ∧ gb (ix4 0 ii j k) = 1#32 then 1 else 0
def cb2 (xb : BX.Idx → EReal) (gb : BG.Idx → BitVec 32) (ob : BO.Idx → EReal) (ii : Fin 16) (j : Fin 128) (k : Fin 32) : EReal :=
  if ob (ix3 ii j 0) = 1 ∧ gb (ix4 0 ii j k) = 1#32 ∧ dgB xb ii j k = rmaxB xb ii j k then 1 else 0
def cb3 (xb : BX.Idx → EReal) (gb : BG.Idx → BitVec 32) (ob : BO.Idx → EReal) (ii : Fin 16) (j : Fin 128) : EReal :=
  if ob (ix3 ii j 0) = 1 ∧ ∀ k : Fin 32, (dgB xb ii j k = rmaxB xb ii j k ↔ gb (ix4 0 ii j k) = 1#32) then 1 else 0

def B0 (xb : BX.Idx → EReal) (gb : BG.Idx → BitVec 32) (ob : BO.Idx → EReal) : EReal := ∑ ii : Fin 16, ∑ j : Fin 128, ∑ k : Fin 32, cb0 xb gb ob ii j k
def B1 (gb : BG.Idx → BitVec 32) (ob : BO.Idx → EReal) : EReal := ∑ ii : Fin 16, ∑ j : Fin 128, ∑ k : Fin 32, cb1 gb ob ii j k
def B2 (xb : BX.Idx → EReal) (gb : BG.Idx → BitVec 32) (ob : BO.Idx → EReal) : EReal := ∑ ii : Fin 16, ∑ j : Fin 128, ∑ k : Fin 32, cb2 xb gb ob ii j k
def B3 (xb : BX.Idx → EReal) (gb : BG.Idx → BitVec 32) (ob : BO.Idx → EReal) : EReal := ∑ ii : Fin 16, ∑ j : Fin 128, cb3 xb gb ob ii j

/-! ## The grid: which batch and which rows a point sees -/

def bOf (t : Fin 32) : Fin 4 := ⟨t.val / 8, by have := t.isLt; omega⟩
def rowOf (t : Fin 32) (ii : Fin 16) : Fin 128 := ⟨16 * (t.val % 8) + ii.val, by have := ii.isLt; omega⟩

/-- The blocks point `t` sees, cut out of the whole arrays; the mask block is 0 on the diagonal, 1 off it. -/
def xBlk (x : SX.Idx → EReal) (t : Fin 32) : BX.Idx → EReal := fun y => x (ix5 (bOf t) (rowOf t (y 1)) (y 2) (y 3) (y 4))
def gBlk (g : SG.Idx → BitVec 32) (t : Fin 32) : BG.Idx → BitVec 32 := fun y => g (ix4 (bOf t) (rowOf t (y 1)) (y 2) (y 3))
def oBlk (t : Fin 32) : BO.Idx → EReal := fun y => if (rowOf t (y 0)).val = (y 1).val then 0 else 1

def P0 (x : SX.Idx → EReal) (g : SG.Idx → BitVec 32) (t : Fin 32) : EReal := B0 (xBlk x t) (gBlk g t) (oBlk t)
def P1 (g : SG.Idx → BitVec 32) (t : Fin 32) : EReal := B1 (gBlk g t) (oBlk t)
def P2 (x : SX.Idx → EReal) (g : SG.Idx → BitVec 32) (t : Fin 32) : EReal := B2 (xBlk x t) (gBlk g t) (oBlk t)
def P3 (x : SX.Idx → EReal) (g : SG.Idx → BitVec 32) (t : Fin 32) : EReal := B3 (xBlk x t) (gBlk g t) (oBlk t)

end Cert.Spec

end
-- ==== Proof.PreFacts.lean ====
/-
  What the precondition says of the inputs: every probability is a finite real, and every label is the word 0 or
  the word 1.  Also the f32 word the proofs evaluate: 1.0 is the real 1.

  The precondition is the conjunction of two "for all" statements, each a fold of `and` from 1 over a whole array
  of bits: a fold of `and` that comes out 1 met only 1s.  The bit of a probability p is |p| < +∞ with |p| =
  max p (-p), and an extended real with max p (-p) < ⊤ is neither ⊤ nor ⊥.  The bit of a label w is
  (w = 0) or (w = 1).
-/
import proofs.«421995_j52424370815346_4_alg».proof.Pre_finite_inputs
import proofs.«421995_j52424370815346_4_alg».proof.Proof.Gen.Pre_finite_inputs
import proofs.«421995_j52424370815346_4_alg».proof.Proof.Spec
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

/-- The f32 word 0x3F800000 is the real 1: sign 0, exponent field 127 (the bias), fraction 0, so
    (2^23 + 0) · 2^(127 - 127 - 23) = 1. -/
theorem one_eq : Cert.Spec.one = 1 := by
  unfold Cert.Spec.one
  simp [Ideal.ofBits, Ideal.ieee, -EReal.coe_mul]
  norm_num

/-- The rank-0 shape has one index. -/
private instance subsingleton_idx : Subsingleton S_.Idx := ⟨fun a b => funext fun d => d.elim0⟩

/-- The f32 word 0x7F800000 is +∞: exponent field all ones, fraction 0, sign 0. -/
private theorem inf_eq : Ideal.ofBits .f32 0x7F800000#32 = (⊤ : EReal) := by simp [Ideal.ofBits, Ideal.ieee]

/-- An extended real whose absolute value max a (-a) lies strictly below +∞ is a real: at ⊤ the maximum is ⊤,
    and at ⊥ it is -⊥ = ⊤. -/
private theorem real_of_abs_lt_top (a : EReal) (h : max a (-a) < ⊤) : ∃ r : ℝ, a = (r : EReal) := by
  induction a using EReal.rec with
  | bot => simp at h
  | coe r => exact ⟨r, rfl⟩
  | top => simp at h

/-- The precondition split into its two conjuncts, each read at one element: the conjunction is 1 iff both
    conjuncts are, and a fold of `and` over all elements that is 1 had a 1 at every element. -/
private theorem split_pre (x : FVec Ideal S4x128x128x32x32 .f32) (g : IVec S4x128x128x32 32)
    (h : Cert.Pre_finite_inputs.fn (F := Ideal) x g = fun _ => 1#1) :
    (∀ p, Ideal.cmp .olt (max (x p) (-(x p))) (Ideal.ofBits .f32 0x7F800000#32) = 1#1)
      ∧ ∀ q, IntOp.ori (IntOp.cmpi .eq (g q) 0#32) (IntOp.cmpi .eq (g q) 1#32) = 1#1 := by
  have e := congrFun h ix0
  dsimp only [Cert.Pre_finite_inputs.fn, andi] at e
  obtain ⟨e1, e2⟩ := IntOp.andi_eq_one.1 e
  exact ⟨fun p => Host.reduce_andi_all _ _ _ _ _ e1 p, fun q => Host.reduce_andi_all _ _ _ _ _ e2 q⟩

/-- Every label is 0 or 1. -/
theorem binary_of_pre (x : FVec Ideal S4x128x128x32x32 .f32) (g : IVec S4x128x128x32 32)
    (h : Cert.Pre_finite_inputs.fn (F := Ideal) x g = fun _ => 1#1) : ∀ q, g q = 0#32 ∨ g q = 1#32 := by
  intro q
  rcases IntOp.ori_eq_one.1 ((split_pre x g h).2 q) with e | e
  · exact Or.inl (StableHlo.Predicate.cmpi_eq_iff.1 e)
  · exact Or.inr (StableHlo.Predicate.cmpi_eq_iff.1 e)

/-- Every probability is a finite real. -/
theorem finite_of_pre (x : FVec Ideal S4x128x128x32x32 .f32) (g : IVec S4x128x128x32 32)
    (h : Cert.Pre_finite_inputs.fn (F := Ideal) x g = fun _ => 1#1) : ∀ q, ∃ r : ℝ, x q = (r : EReal) := by
  intro q
  have e := (split_pre x g h).1 q
  rw [inf_eq] at e
  unfold Ideal.cmp at e
  exact real_of_abs_lt_top (x q) (of_decide_eq_true ((StableHlo.Predicate.ofBool_eq_one_iff _).1 e))

end Cert.PreFacts

end
-- ==== Proof.KPiece.lean ====
/-
  What one run of the kernel body leaves in the output block, as ONE pure term of the three input blocks and of
  what the block held before: the previous contents plus, in row 0, the four partial totals of this point in
  columns 0 to 3.  At the first grid point the block is first reset to zero.
-/
import proofs.«421995_j52424370815346_4_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KValue

open Idealize.ShloMosaic Idealize.ShloMosaic.ValueIdx Cert.KernelIdeal Cert.KernelIdeal.Gen

variable {F : FTy → Type} [FloatOps F]

/-- One point's update of the output block. -/
def step (x0 : Vec F S1x16x128x32x32 .f32) (x1 : Vec F S1x16x128x32 .i32) (x2 : Vec F S16x128x1 .f32) (xo : Vec F S8x128 .f32) :
    Vec F S8x128 .f32 :=
  k0_pay14 (k0_pay8 (k0_pay6 x0 x1) (k0_pay7 x2)) (k0_pay11 (k0_pay2 x1) (k0_pay3 x2))
    (k0_pay12 (k0_pay2 x1) (k0_pay3 x2) (k0_pay4 x0) (k0_pay5 x0))
    (k0_pay13 (k0_pay2 x1) (k0_pay3 x2) (k0_pay4 x0) (k0_pay5 x0)) xo

/-- The zero offset vector of each block shape is the constant zero function. -/
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl
private theorem hz5 : (![0, 0, 0, 0, 0] : Fin 5 → Nat) = fun _ => 0 := funext fun a => by fin_cases a <;> rfl

/-- The first point: the block is reset to zero, read back, and updated.  The body's two stores both cover the whole
    block, so the block ends at the later one's value; the value the update reads back is the reset's, and each
    input is read whole at zero offsets, which is the input block itself. -/
theorem out_A (c : Dev nD) (i : grid0.Coords) (a2 : Memref sig .tc .vmem S1x16x128x32x32 .f32) (h2 : a2.IsWhole)
    (a3 : Memref sig .tc .vmem S1x16x128x32 .i32) (h3 : a3.IsWhole) (a4 : Memref sig .tc .vmem S16x128x1 .f32) (h4 : a4.IsWhole)
    (a5 : Memref sig .tc .vmem S8x128 .f32) (h5 : a5.IsWhole) (hc : cond0_0 i)
    (x0 : Vec F S1x16x128x32x32 .f32) (x1 : Vec F S1x16x128x32 .i32) (x2 : Vec F S16x128x1 .f32) :
    out0_A_3 c i a2 h2 a3 h3 a4 h4 a5 h5 hc x0 x1 x2 = step x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz2, View.readCov_unit_zero (S := S8x128) _ hz2]
  simp only [View.readAt_eq_ld, h2.read_unread, h3.read_unread, h4.read_unread,
    View.ld_unit_zero (S := S1x16x128x32x32) hz5, View.ld_unit_zero (S := S1x16x128x32) hz4,
    View.ld_unit_zero (S := S16x128x1) hz3, step]

/-- Every later point: the block holding `xo` is updated.  The body's one store covers the whole block, so the
    block ends at its value; the previous contents and each input are read whole at zero offsets. -/
theorem out_B (c : Dev nD) (i : grid0.Coords) (a2 : Memref sig .tc .vmem S1x16x128x32x32 .f32) (h2 : a2.IsWhole)
    (a3 : Memref sig .tc .vmem S1x16x128x32 .i32) (h3 : a3.IsWhole) (a4 : Memref sig .tc .vmem S16x128x1 .f32) (h4 : a4.IsWhole)
    (a5 : Memref sig .tc .vmem S8x128 .f32) (h5 : a5.IsWhole) (hc : ¬cond0_0 i)
    (x0 : Vec F S1x16x128x32x32 .f32) (x1 : Vec F S1x16x128x32 .i32) (x2 : Vec F S16x128x1 .f32) (xo : Vec F S8x128 .f32) :
    out0_B_3 c i a2 h2 a3 h3 a4 h4 a5 h5 hc x0 x1 x2 xo = step x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz2]
  simp only [View.readAt_eq_ld, h2.read_unread, h3.read_unread, h4.read_unread, h5.read_unread,
    View.ld_unit_zero (S := S1x16x128x32x32) hz5, View.ld_unit_zero (S := S1x16x128x32) hz4,
    View.ld_unit_zero (S := S16x128x1) hz3, View.ld_unit_zero (S := S8x128) hz2, step]

end Cert.KernelIdeal.KValue

end
-- ==== Proof.KStep.lean ====
/-
  The update of the output block read at the four entries that matter, over the extended reals: row 0, column c
  gains the c-th partial total (the other three are multiplied by a zero of the column pattern and vanish).
-/
import proofs.«421995_j52424370815346_4_alg».proof.Proof.KPiece
import proofs.«421995_j52424370815346_4_alg».proof.Proof.Spec
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen

/-- The reset block is zero. -/
theorem pay1_apply (y : S8x128.Idx) : k0_pay1 (F := Ideal) y = 0 := by
  unfold k0_pay1
  exact Ideal.ofBits_zero_f32

/-- The word of a column pattern at row 0, column `c`: both coordinate tests, on the coordinates themselves. -/
private theorem patWord (w : BitVec 32) (c : Fin 128) :
    andi (cmpi .eq (iota .tc S8x128 32 [0] iota_S8x128_d0_w32) (broadcast S8x128 0#32))
      (cmpi .eq (iota .tc S8x128 32 [1] iota_S8x128_d1_w32) (broadcast S8x128 w)) (ix2 0 c)
      = IntOp.andi (IntOp.cmpi .eq (BitVec.ofNat 32 0) 0#32) (IntOp.cmpi .eq (BitVec.ofNat 32 c.val) w) := by
  show IntOp.andi (IntOp.cmpi .eq (iota .tc S8x128 32 [0] iota_S8x128_d0_w32 (ix2 0 c)) 0#32)
      (IntOp.cmpi .eq (iota .tc S8x128 32 [1] iota_S8x128_d1_w32 (ix2 0 c)) w) = _
  rw [iota_single_apply, iota_single_apply]
  rfl

/-- The integers 1 and 0, read as extended reals. -/
private theorem sitofp_one : FloatOps.sitofp (F := Ideal) .f32 (1#32) = 1 := by
  show (((1#32 : BitVec 32).toInt : ℝ) : EReal) = 1
  rw [show (1#32 : BitVec 32).toInt = 1 from by decide]; simp
private theorem sitofp_zero : FloatOps.sitofp (F := Ideal) .f32 (0#32) = 0 := by
  show (((0#32 : BitVec 32).toInt : ℝ) : EReal) = 0
  rw [show (0#32 : BitVec 32).toInt = 0 from by decide]; simp

/-- The pattern of column `w` is 1 at row 0 of that column -/
private theorem pat_hit (w : BitVec 32) (c : Fin 128) (h : BitVec.ofNat 32 c.val = w) :
    FloatOps.sitofp (F := Ideal) .f32 (BitVec.setWidth 32
      (andi (cmpi .eq (iota .tc S8x128 32 [0] iota_S8x128_d0_w32) (broadcast S8x128 0#32))
        (cmpi .eq (iota .tc S8x128 32 [1] iota_S8x128_d1_w32) (broadcast S8x128 w)) (ix2 0 c))) = 1 := by
  subst h
  rw [patWord]
  have e : BitVec.setWidth 32 (IntOp.andi (IntOp.cmpi .eq (BitVec.ofNat 32 0) 0#32)
      (IntOp.cmpi .eq (BitVec.ofNat 32 c.val) (BitVec.ofNat 32 c.val))) = 1#32 := by
    simp [IntOp.andi, IntOp.cmpi]
  rw [e]; exact sitofp_one

/-- and 0 at row 0 of every other column. -/
private theorem pat_miss (w : BitVec 32) (c : Fin 128) (h : BitVec.ofNat 32 c.val ≠ w) :
    FloatOps.sitofp (F := Ideal) .f32 (BitVec.setWidth 32
      (andi (cmpi .eq (iota .tc S8x128 32 [0] iota_S8x128_d0_w32) (broadcast S8x128 0#32))
        (cmpi .eq (iota .tc S8x128 32 [1] iota_S8x128_d1_w32) (broadcast S8x128 w)) (ix2 0 c))) = 0 := by
  rw [patWord]
  have e : BitVec.setWidth 32 (IntOp.andi (IntOp.cmpi .eq (BitVec.ofNat 32 0) 0#32)
      (IntOp.cmpi .eq (BitVec.ofNat 32 c.val) w)) = 0#32 := by
    have hb : (BitVec.ofNat 32 c.val == w) = false := beq_eq_false_iff_ne.mpr h
    simp [IntOp.andi, IntOp.cmpi, hb]
  rw [e]; exact sitofp_zero

/-- A one-entry array broadcast over the block reads that entry everywhere. -/
private theorem bcast11 (v : FVec Ideal S1x1 .f32) (p : Fin 8) (c : Fin 128) :
    broadcastTo S8x128 v broadcasts_S1x1_S8x128 (ix2 p c) = v (ix2 0 0) := by
  refine broadcastTo_apply v broadcasts_S1x1_S8x128 (ix2 p c) (ix2 0 0) fun ax => ?_
  match ax with
  | ⟨0, _⟩ => rfl
  | ⟨1, _⟩ => rfl

theorem pay14_apply0 (v42 v53 v60 : FVec Ideal S1x1 .f32) (v76 : FVec Ideal S128x1 .f32) (xo : Vec Ideal S8x128 .f32) :
    k0_pay14 (F := Ideal) v42 v53 v60 v76 xo (ix2 0 0) = xo (ix2 0 0) + v42 (ix2 0 0) := by
  unfold k0_pay14
  simp only [addf_apply, mulf_apply, sitofp_apply, extui_apply, shapeCast_self]
  rw [pat_hit 0#32 0 (by decide), pat_miss 1#32 0 (by decide), pat_miss 2#32 0 (by decide), pat_miss 3#32 0 (by decide)]
  rw [bcast11 v42 0 0]
  simp only [one_mul, zero_mul, add_zero]
theorem pay14_apply1 (v42 v53 v60 : FVec Ideal S1x1 .f32) (v76 : FVec Ideal S128x1 .f32) (xo : Vec Ideal S8x128 .f32) :
    k0_pay14 (F := Ideal) v42 v53 v60 v76 xo (ix2 0 1) = xo (ix2 0 1) + v53 (ix2 0 0) := by
  unfold k0_pay14
  simp only [addf_apply, mulf_apply, sitofp_apply, extui_apply, shapeCast_self]
  rw [pat_miss 0#32 1 (by decide), pat_hit 1#32 1 (by decide), pat_miss 2#32 1 (by decide), pat_miss 3#32 1 (by decide)]
  rw [bcast11 v53 0 1]
  simp only [one_mul, zero_mul, add_zero, zero_add]
theorem pay14_apply2 (v42 v53 v60 : FVec Ideal S1x1 .f32) (v76 : FVec Ideal S128x1 .f32) (xo : Vec Ideal S8x128 .f32) :
    k0_pay14 (F := Ideal) v42 v53 v60 v76 xo (ix2 0 2) = xo (ix2 0 2) + v60 (ix2 0 0) := by
  unfold k0_pay14
  simp only [addf_apply, mulf_apply, sitofp_apply, extui_apply, shapeCast_self]
  rw [pat_miss 0#32 2 (by decide), pat_miss 1#32 2 (by decide), pat_hit 2#32 2 (by decide), pat_miss 3#32 2 (by decide)]
  rw [bcast11 v60 0 2]
  simp only [one_mul, zero_mul, add_zero, zero_add]

theorem pay14_apply3 (v42 v53 v60 : FVec Ideal S1x1 .f32) (v76 : FVec Ideal S128x1 .f32) (xo : Vec Ideal S8x128 .f32) :
    k0_pay14 (F := Ideal) v42 v53 v60 v76 xo (ix2 0 3) = xo (ix2 0 3) + ∑ r : Fin 128, v76 (ix2 r 0) := by
  unfold k0_pay14
  simp only [addf_apply, mulf_apply, sitofp_apply, extui_apply, shapeCast_self]
  rw [pat_miss 0#32 3 (by decide), pat_miss 1#32 3 (by decide), pat_miss 2#32 3 (by decide), pat_hit 3#32 3 (by decide)]
  simp only [one_mul, zero_mul, add_zero, zero_add]
  rw [bcast11 _ 0 3, shapeCast_a_1a_apply _ shapeCasts_S1_S1x1 0 0]
  refine congrArg (fun z => xo (ix2 0 3) + z) ?_
  refine (Ideal.multiReduction_add_single v76 0x00000000#32 reduces_S128x1_S1 _ _ (ix1 0)).trans ?_
  refine Finset.sum_congr rfl fun k _ => congrArg v76 ?_
  funext a
  match a with
  | ⟨0, _⟩ => rfl
  | ⟨1, _⟩ => rfl

end Cert.KernelIdeal.KValue

end
-- ==== Proof.KCommon.lean ====
/-
  The kernel body's pointwise pieces, read at an index over the extended reals: the label block as a real, the
  mask block broadcast along the label axis, the diagonal entry (a sum against the identity pattern keeps one term),
  the row maximum (a maximum over the transposed block), the two indicator casts, and the four-fold reduction that
  sums a [1,16,128,32] block to one number.
-/
import proofs.«421995_j52424370815346_4_alg».proof.Proof.Gen.KernelIdeal.Skeleton
import proofs.«421995_j52424370815346_4_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.KValue

open Idealize.ShloMosaic Idealize.ShloMosaic.ValueIdx Idealize.ShloMosaic.StableHlo.Predicate Cert.KernelIdeal Cert.KernelIdeal.Gen

/-- The label block as extended reals: the signed integer, exactly. -/
theorem pay2_apply (gb : Vec Ideal S1x16x128x32 .i32) (y : S1x16x128x32.Idx) :
    k0_pay2 (F := Ideal) gb y = (((gb y).toInt : ℝ) : EReal) := rfl

/-- The mask block with a leading unit axis: the same entries. -/
theorem pay3_apply (ob : Vec Ideal S16x128x1 .f32) (ii : Fin 16) (j : Fin 128) :
    k0_pay3 (F := Ideal) ob (ix4 0 ii j 0) = ob (ix3 ii j 0) := by
  unfold k0_pay3
  rw [shapeCast_self]
  exact shapeCast_abc_1abc_apply ob _ 0 ii j 0

/-- The mask block broadcast along the label axis. -/
theorem pay7_apply (ob : Vec Ideal S16x128x1 .f32) (ii : Fin 16) (j : Fin 128) (k : Fin 32) :
    k0_pay7 (F := Ideal) ob (ix4 0 ii j k) = ob (ix3 ii j 0) := by
  unfold k0_pay7
  refine (broadcastTo_apply _ _ _ (ix4 0 ii j 0) fun a => ?_).trans (pay3_apply ob ii j)
  match a with
  | ⟨0, _⟩ => rfl
  | ⟨1, _⟩ => rfl
  | ⟨2, _⟩ => rfl
  | ⟨3, _⟩ => rfl

/-- The index over a label index with the sublane coordinate inserted on the second-last axis. -/
private theorem lift_sublane (h : S1x16x128x32x32.Reduces [3] S1x16x128x32) (ii : Fin 16) (j : Fin 128) (k l : Fin 32) :
    h.lift (ix4 0 ii j k) l = ix5 0 ii j l k := by
  funext c
  match c with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- A [32,32] pattern viewed [1,1,1,32,32] and repeated over the block reads its own (l, k) entry. -/
private theorem tile_apply (p : FVec Ideal S32x32 .f32) (h1 : S32x32.ShapeCasts S1x1x1x32x32)
    (h2 : S1x1x1x32x32.Broadcasts S1x16x128x32x32) (ii : Fin 16) (j : Fin 128) (l k : Fin 32) :
    broadcastTo S1x16x128x32x32 (shapeCast S1x1x1x32x32 p h1) h2 (ix5 0 ii j l k) = p (ix2 l k) := by
  refine (broadcastTo_apply _ h2 _ (ix5 0 0 0 l k) fun a => ?_).trans (shapeCast_apply p h1 _ (ix2 l k) ?_)
  · match a with
    | ⟨0, _⟩ => rfl
    | ⟨1, _⟩ => rfl
    | ⟨2, _⟩ => rfl
    | ⟨3, _⟩ => rfl
    | ⟨4, _⟩ => rfl
  · rw [Shape.rowMajor_val_two, Shape.rowMajor_val_five]
    show l.val * 32 + k.val = ((((0 * 1 + 0) * 1 + 0) * 32 + l.val) * 32 + k.val)
    omega

/-- The identity pattern: 1 on the diagonal, 0 off it. -/
private theorem eye_apply (h0 : S32x32.Iotas .tc 32 [0]) (h1 : S32x32.Iotas .tc 32 [1]) (hw : 1 < 32) (l k : Fin 32) :
    (sitofp .f32 (extui 32 (cmpi .eq (iota .tc S32x32 32 [0] h0) (iota .tc S32x32 32 [1] h1)) hw) : FVec Ideal S32x32 .f32) (ix2 l k)
      = if l = k then 1 else 0 := by
  show (((((IntOp.cmpi .eq (iota .tc S32x32 32 [0] h0 (ix2 l k)) (iota .tc S32x32 32 [1] h1 (ix2 l k))).setWidth 32).toInt : ℤ) : ℝ) : EReal) = _
  rw [iota_single_apply, iota_single_apply]
  show (((((IntOp.cmpi .eq (BitVec.ofNat 32 l.val) (BitVec.ofNat 32 k.val)).setWidth 32).toInt : ℤ) : ℝ) : EReal) = _
  by_cases hlk : l = k
  · subst hlk
    rw [cmpi_eq_iff.mpr rfl, if_pos rfl]
    simp
  · have hne : ¬ IntOp.cmpi .eq (BitVec.ofNat 32 l.val) (BitVec.ofNat 32 k.val) = 1#1 := by
      rw [cmpi_eq_iff]
      intro he
      apply hlk
      have := congrArg BitVec.toNat he
      simp only [BitVec.toNat_ofNat] at this
      have hl := l.isLt
      have hk := k.isLt
      exact Fin.ext (by omega)
    rw [eq_zero_of_ne_one hne, if_neg hlk]
    simp

/-- The diagonal entry: the sum over the sublane axis of the block against the identity pattern keeps one term. -/
theorem pay4_apply (xb : Vec Ideal S1x16x128x32x32 .f32) (ii : Fin 16) (j : Fin 128) (k : Fin 32) :
    k0_pay4 (F := Ideal) xb (ix4 0 ii j k) = Cert.Spec.dgB xb ii j k := by
  show k0_pay4 (F := Ideal) xb (ix4 0 ii j k) = xb (ix5 0 ii j k k)
  unfold k0_pay4
  refine (Ideal.multiReduction_add_single _ _ _ _ _ _).trans ?_
  show ∑ l : Fin 32, _ = _
  rw [Finset.sum_eq_single k]
  · rw [lift_sublane, mulf_apply, tile_apply, eye_apply, if_pos rfl, mul_one]
  · intro l _ hl
    rw [lift_sublane, mulf_apply, tile_apply, eye_apply, if_neg hl, mul_zero]
  · intro hk
    exact absurd (Finset.mem_univ k) hk

/-- The transposed block over a label index, at sublane coordinate l: the block's (k, l) entry. -/
private theorem transpose_lift (xb : Vec Ideal S1x16x128x32x32 .f32)
    (ht : S1x16x128x32x32.Transposes [0, 1, 2, 4, 3] S1x16x128x32x32) (h : S1x16x128x32x32.Reduces [3] S1x16x128x32)
    (ii : Fin 16) (j : Fin 128) (k l : Fin 32) :
    transpose S1x16x128x32x32 [0, 1, 2, 4, 3] xb ht (h.lift (ix4 0 ii j k) l) = xb (ix5 0 ii j k l) := by
  rw [lift_sublane]
  refine transpose_apply _ xb ht (ix5 0 ii j l k) (ix5 0 ii j k l) fun b => ?_
  match b with
  | ⟨0, _⟩ => rfl
  | ⟨1, _⟩ => rfl
  | ⟨2, _⟩ => rfl
  | ⟨3, _⟩ => rfl
  | ⟨4, _⟩ => rfl

/-- The row maximum: the maximum over the sublane axis of the transposed block. -/
theorem pay5_apply (xb : Vec Ideal S1x16x128x32x32 .f32) (ii : Fin 16) (j : Fin 128) (k : Fin 32) :
    k0_pay5 (F := Ideal) xb (ix4 0 ii j k) = Cert.Spec.rmaxB xb ii j k := by
  show k0_pay5 (F := Ideal) xb (ix4 0 ii j k)
      = (Finset.univ : Finset (Fin 32)).fold max (Ideal.ofBits .f32 0xFF800000#32) (fun l => xb (ix5 0 ii j k l))
  unfold k0_pay5
  refine (Ideal.multiReduction_maximumf_single _ _ _ _ _ _).trans ?_
  show (Finset.univ : Finset (Fin 32)).fold max (Ideal.ofBits .f32 0xFF800000#32) _ = _
  congr 1
  funext l
  exact transpose_lift xb _ _ ii j k l

/-- The indicator of "diagonal entry equals row maximum", as 0 or 1. -/
theorem pay9_apply (v19 v21 : FVec Ideal S1x16x128x32 .f32) (y : S1x16x128x32.Idx) :
    k0_pay9 (F := Ideal) v19 v21 y = if v19 y = v21 y then 1 else 0 := by
  show (((((Ideal.cmp .oeq (v19 y) (v21 y)).setWidth 32).toInt : ℤ) : ℝ) : EReal) = _
  unfold Ideal.cmp
  by_cases h : v19 y = v21 y
  · simp [h]
  · simp [h]

/-- Label times mask. -/
theorem pay10_apply (v7 : FVec Ideal S1x16x128x32 .f32) (v10 : FVec Ideal S1x16x128x1 .f32) (ii : Fin 16) (j : Fin 128) (k : Fin 32) :
    k0_pay10 (F := Ideal) v7 v10 (ix4 0 ii j k) = v7 (ix4 0 ii j k) * v10 (ix4 0 ii j 0) := by
  unfold k0_pay10
  rw [mulf_apply]
  congr 1
  refine broadcastTo_apply _ _ _ (ix4 0 ii j 0) fun a => ?_
  match a with
  | ⟨0, _⟩ => rfl
  | ⟨1, _⟩ => rfl
  | ⟨2, _⟩ => rfl
  | ⟨3, _⟩ => rfl

/-- The sum over the leading unit axis of a [1,16,128,32] block keeps its one term. -/
private theorem sum_unit (v : FVec Ideal S1x16x128x32 .f32) (h : S1x16x128x32.Reduces [0] S16x128x32)
    (hφ : FKind.Formats .f32) (hacc : (0x00000000#32 : BitVec 32) = FKind.add.neutral .f32 hφ) (ii : Fin 16) (j : Fin 128) (k : Fin 32) :
    multiReduction .add [0] S16x128x32 v 0x00000000#32 h hφ hacc (ix3 ii j k) = v (ix4 0 ii j k) := by
  rw [Ideal.multiReduction_add_single]
  show ∑ u : Fin 1, v (h.lift (ix3 ii j k) u) = _
  rw [Fin.sum_univ_one]
  congr 1
  funext c
  match c with
  | ⟨0, _⟩ => exact Fin.ext rfl
  | ⟨1, _⟩ => exact Fin.ext rfl
  | ⟨2, _⟩ => exact Fin.ext rfl
  | ⟨3, _⟩ => exact Fin.ext rfl

/-- The sum over the 16 rows of a [16,128,32] block. -/
private theorem sum_rows (w : FVec Ideal S16x128x32 .f32) (h : S16x128x32.Reduces [0] S128x32)
    (hφ : FKind.Formats .f32) (hacc : (0x00000000#32 : BitVec 32) = FKind.add.neutral .f32 hφ) (j : Fin 128) (k : Fin 32) :
    multiReduction .add [0] S128x32 w 0x00000000#32 h hφ hacc (ix2 j k) = ∑ ii : Fin 16, w (ix3 ii j k) := by
  rw [Ideal.multiReduction_add_single]
  show ∑ ii : Fin 16, w (h.lift (ix2 j k) ii) = _
  refine Finset.sum_congr rfl fun ii _ => ?_
  congr 1
  funext c
  match c with
  | ⟨0, _⟩ => exact Fin.ext rfl
  | ⟨1, _⟩ => exact Fin.ext rfl
  | ⟨2, _⟩ => exact Fin.ext rfl

/-- The sum over the 32 label positions of a [128,32] block. -/
private theorem sum_labels (w : FVec Ideal S128x32 .f32) (h : S128x32.Reduces [1] S128)
    (hφ : FKind.Formats .f32) (hacc : (0x00000000#32 : BitVec 32) = FKind.add.neutral .f32 hφ) (j : Fin 128) :
    multiReduction .add [1] S128 w 0x00000000#32 h hφ hacc (ix1 j) = ∑ k : Fin 32, w (ix2 j k) := by
  rw [Ideal.multiReduction_add_single]
  show ∑ k : Fin 32, w (h.lift (ix1 j) k) = _
  refine Finset.sum_congr rfl fun k _ => ?_
  congr 1
  funext c
  match c with
  | ⟨0, _⟩ => exact Fin.ext rfl
  | ⟨1, _⟩ => exact Fin.ext rfl

/-- The sum over the 128 columns of a [128,1] block. -/
private theorem sum_cols (w : FVec Ideal S128x1 .f32) (h : S128x1.Reduces [0] S1)
    (hφ : FKind.Formats .f32) (hacc : (0x00000000#32 : BitVec 32) = FKind.add.neutral .f32 hφ) :
    multiReduction .add [0] S1 w 0x00000000#32 h hφ hacc (ix1 0) = ∑ j : Fin 128, w (ix2 j 0) := by
  rw [Ideal.multiReduction_add_single]
  show ∑ j : Fin 128, w (h.lift (ix1 0) j) = _
  refine Finset.sum_congr rfl fun j _ => ?_
  congr 1
  funext c
  match c with
  | ⟨0, _⟩ => exact Fin.ext rfl
  | ⟨1, _⟩ => exact Fin.ext rfl

/-- A [128] vector viewed [128,1] reads its own entries. -/
private theorem col_apply (w : FVec Ideal S128 .f32) (h : S128.ShapeCasts S128x1) (j : Fin 128) :
    shapeCast S128x1 w h (ix2 j 0) = w (ix1 j) := by
  refine shapeCast_apply w h _ (ix1 j) ?_
  rw [Shape.rowMajor_val_one, Shape.rowMajor_val_two]
  show j.val = j.val * 1 + 0
  omega

/-- The four nested sums (over the unit axis, the 16 rows, the 32 label positions, the 128 columns) of a
    [1,16,128,32] block, with the two unit re-shapes between them, are the sum of all its entries. -/
theorem chain_sum (v : FVec Ideal S1x16x128x32 .f32) :
    (shapeCast S1x1 (multiReduction .add [0] S1 (shapeCast S128x1 (multiReduction .add [1] S128
      (multiReduction .add [0] S128x32 (multiReduction .add [0] S16x128x32 v 0x00000000#32 reduces_S1x16x128x32_S16x128x32 (.inl rfl) rfl)
        0x00000000#32 reduces_S16x128x32_S128x32 (.inl rfl) rfl) 0x00000000#32 reduces_S128x32_S128 (.inl rfl) rfl) shapeCasts_S128_S128x1)
      0x00000000#32 reduces_S128x1_S1 (.inl rfl) rfl) shapeCasts_S1_S1x1 : FVec Ideal S1x1 .f32) (ix2 0 0)
      = ∑ ii : Fin 16, ∑ j : Fin 128, ∑ k : Fin 32, v (ix4 0 ii j k) := by
  refine (shapeCast_a_1a_apply _ _ 0 0).trans ?_
  refine (sum_cols _ _ _ _).trans ?_
  calc ∑ j : Fin 128, _ = ∑ j : Fin 128, ∑ k : Fin 32, ∑ ii : Fin 16, v (ix4 0 ii j k) :=
        Finset.sum_congr rfl fun j _ =>
          (col_apply _ _ j).trans <| (sum_labels _ _ _ _ j).trans <|
            Finset.sum_congr rfl fun k _ =>
              (sum_rows _ _ _ _ j k).trans <| Finset.sum_congr rfl fun ii _ => sum_unit v _ _ _ ii j k
    _ = ∑ j : Fin 128, ∑ ii : Fin 16, ∑ k : Fin 32, v (ix4 0 ii j k) :=
        Finset.sum_congr rfl fun j _ => Finset.sum_comm
    _ = ∑ ii : Fin 16, ∑ j : Fin 128, ∑ k : Fin 32, v (ix4 0 ii j k) := Finset.sum_comm

end Cert.KernelIdeal.KValue

end
-- ==== Proof.KLoss.lean ====
/-
  The first partial total of one point: the masked cross-entropy summed over the block.  With a binary label t the
  kernel's t·(0 - log p) + (1 - t)·(0 - log (1 - p)) is -log p or -log (1 - p) (a zero factor kills the other term
  even when it is infinite), and the mask entry 0 or 1 keeps or drops it.
-/
import proofs.«421995_j52424370815346_4_alg».proof.Proof.KCommon
import proofs.«421995_j52424370815346_4_alg».proof.Proof.PreFacts

noncomputable section

namespace Cert.KernelIdeal.KValue

open Idealize.ShloMosaic Idealize.ShloMosaic.ValueIdx Cert.KernelIdeal Cert.KernelIdeal.Gen

/-- The unmasked term at one index: t·(0 - log p) + (1 - t)·(0 - log (1 - p)) with t the label as a real
    and p the diagonal entry. -/
private theorem pay6_apply (xb : Vec Ideal S1x16x128x32x32 .f32) (gb : Vec Ideal S1x16x128x32 .i32) (y : S1x16x128x32.Idx) :
    k0_pay6 (F := Ideal) xb gb y
      = k0_pay2 (F := Ideal) gb y * (Ideal.ofBits .f32 0x00000000#32 - Ideal.log (k0_pay4 (F := Ideal) xb y))
        + (Cert.Spec.one - k0_pay2 (F := Ideal) gb y)
          * (Ideal.ofBits .f32 0x00000000#32 - Ideal.log (Cert.Spec.one - k0_pay4 (F := Ideal) xb y)) := rfl

/-- In the extended reals 1 - 1 = 0 (both are the real 1). -/
private theorem one_sub_one : (1 : EReal) - 1 = 0 := by
  rw [← EReal.coe_one, ← EReal.coe_sub, sub_self, EReal.coe_zero]

/-- With label 0 the term is -log (1 - p): 0·a = 0 for every extended real a. -/
private theorem term_zero (a c : EReal) : (0 : EReal) * (0 - a) + (Cert.Spec.one - 0) * (0 - c) = -c := by
  rw [zero_mul, zero_add, sub_zero, Cert.PreFacts.one_eq, one_mul, zero_sub]

/-- With label 1 the term is -log p. -/
private theorem term_one (a c : EReal) : (1 : EReal) * (0 - a) + (Cert.Spec.one - 1) * (0 - c) = -a := by
  rw [Cert.PreFacts.one_eq, one_sub_one, zero_mul, add_zero, one_mul, zero_sub]

/-- The masked term at (ii, j, k) is the block's cross-entropy term. -/
private theorem loss_term (xb : Vec Ideal S1x16x128x32x32 .f32) (gb : Vec Ideal S1x16x128x32 .i32) (ob : Vec Ideal S16x128x1 .f32)
    (hb : ∀ y, gb y = 0#32 ∨ gb y = 1#32) (ho : ∀ y, ob y = 0 ∨ ob y = 1) (ii : Fin 16) (j : Fin 128) (k : Fin 32) :
    k0_pay6 (F := Ideal) xb gb (ix4 0 ii j k) * k0_pay7 (F := Ideal) ob (ix4 0 ii j k) = Cert.Spec.cb0 xb gb ob ii j k := by
  rw [pay6_apply, pay2_apply, pay4_apply, pay7_apply, Ideal.ofBits_zero_f32]
  unfold Cert.Spec.cb0
  rcases ho (ix3 ii j 0) with o0 | o1
  · rw [o0, mul_zero, if_neg (zero_ne_one (α := EReal))]
  · rw [o1, mul_one, if_pos rfl]
    rcases hb (ix4 0 ii j k) with h0 | h1
    · rw [h0, if_neg (by decide)]
      have e : (((0#32 : BitVec 32).toInt : ℝ) : EReal) = 0 := by
        have : (0#32 : BitVec 32).toInt = 0 := by decide
        rw [this, Int.cast_zero, EReal.coe_zero]
      rw [e]
      exact term_zero _ _
    · rw [h1, if_pos rfl]
      have e : (((1#32 : BitVec 32).toInt : ℝ) : EReal) = 1 := by
        have : (1#32 : BitVec 32).toInt = 1 := by decide
        rw [this, Int.cast_one, EReal.coe_one]
      rw [e]
      exact term_one _ _

theorem pay_loss (xb : Vec Ideal S1x16x128x32x32 .f32) (gb : Vec Ideal S1x16x128x32 .i32) (ob : Vec Ideal S16x128x1 .f32)
    (hb : ∀ y, gb y = 0#32 ∨ gb y = 1#32) (ho : ∀ y, ob y = 0 ∨ ob y = 1) :
    k0_pay8 (F := Ideal) (k0_pay6 xb gb) (k0_pay7 ob) (ix2 0 0) = Cert.Spec.B0 xb gb ob := by
  unfold k0_pay8
  refine (chain_sum _).trans ?_
  unfold Cert.Spec.B0
  refine Finset.sum_congr rfl fun ii _ => Finset.sum_congr rfl fun j _ => Finset.sum_congr rfl fun k _ => ?_
  rw [mulf_apply]
  exact loss_term xb gb ob hb ho ii j k

end Cert.KernelIdeal.KValue

end
-- ==== Proof.KCounts.lean ====
/-
  The second and third partial totals of one point: the masked count of positive labels, and of positive labels
  whose diagonal entry attains the row maximum.  A binary label as a real is its own indicator, so the product
  label * mask (and, for the third total, * [diagonal = row maximum]) of factors in {0, 1} is the indicator of the
  conjunction; the four nested sums then range over the 16 rows, 128 columns and 32 label positions of the block.
-/
import proofs.«421995_j52424370815346_4_alg».proof.Proof.KCommon

noncomputable section

namespace Cert.KernelIdeal.KValue

open Idealize.ShloMosaic Idealize.ShloMosaic.ValueIdx Cert.KernelIdeal Cert.KernelIdeal.Gen

/-- A label in {0, 1} read as a real, times a mask entry in {0, 1}, is 1 exactly when both are 1. -/
private theorem label_mul_mask (b : BitVec 32) (o : EReal) (hb : b = 0#32 ∨ b = 1#32) (ho : o = 0 ∨ o = 1) :
    (((b.toInt : ℝ) : EReal)) * o = if o = 1 ∧ b = 1#32 then 1 else 0 := by
  rcases hb with rfl | rfl <;> rcases ho with rfl | rfl <;> simp

theorem pay_count (gb : Vec Ideal S1x16x128x32 .i32) (ob : Vec Ideal S16x128x1 .f32)
    (hb : ∀ y, gb y = 0#32 ∨ gb y = 1#32) (ho : ∀ y, ob y = 0 ∨ ob y = 1) :
    k0_pay11 (F := Ideal) (k0_pay2 gb) (k0_pay3 ob) (ix2 0 0) = Cert.Spec.B1 gb ob := by
  -- the nested sums of the block label * mask are the sum of all its entries
  refine (chain_sum (k0_pay10 (k0_pay2 gb) (k0_pay3 ob))).trans ?_
  unfold Cert.Spec.B1
  -- entry by entry over rows ii, columns j, label positions k
  refine Finset.sum_congr rfl fun ii _ => Finset.sum_congr rfl fun j _ => Finset.sum_congr rfl fun k _ => ?_
  rw [pay10_apply, pay2_apply, pay3_apply]
  exact label_mul_mask _ _ (hb _) (ho _)

theorem pay_correct (xb : Vec Ideal S1x16x128x32x32 .f32) (gb : Vec Ideal S1x16x128x32 .i32) (ob : Vec Ideal S16x128x1 .f32)
    (hb : ∀ y, gb y = 0#32 ∨ gb y = 1#32) (ho : ∀ y, ob y = 0 ∨ ob y = 1) :
    k0_pay12 (F := Ideal) (k0_pay2 gb) (k0_pay3 ob) (k0_pay4 xb) (k0_pay5 xb) (ix2 0 0) = Cert.Spec.B2 xb gb ob := by
  -- the nested sums of the block [diagonal = row maximum] * (label * mask) are the sum of all its entries
  refine (chain_sum (mulf (k0_pay9 (k0_pay4 xb) (k0_pay5 xb)) (k0_pay10 (k0_pay2 gb) (k0_pay3 ob)))).trans ?_
  unfold Cert.Spec.B2
  -- entry by entry over rows ii, columns j, label positions k
  refine Finset.sum_congr rfl fun ii _ => Finset.sum_congr rfl fun j _ => Finset.sum_congr rfl fun k _ => ?_
  rw [mulf_apply, pay9_apply, pay10_apply, pay2_apply, pay3_apply, pay4_apply, pay5_apply,
    label_mul_mask _ _ (hb _) (ho _)]
  unfold Cert.Spec.cb2
  -- a product of two indicators is the indicator of the conjunction
  by_cases h : Cert.Spec.dgB xb ii j k = Cert.Spec.rmaxB xb ii j k
  · simp [h]
  · simp [h]

end Cert.KernelIdeal.KValue

end
-- ==== Proof.KPair.lean ====
/-
  The fourth partial total of one point: the masked count of pairs all of whose 32 label positions are predicted
  correctly.

  At row r the last payload is the sum over the sixteen block rows ii of  pair(ii, r) · mask(ii, r),  where
  pair(ii, r) is 1 when the sum over the 32 label positions k of  1 - ok(ii, r, k)  vanishes and 0 otherwise, and
  ok(ii, r, k) is 1 when the indicator "diagonal entry equals row maximum" equals the label read as a real, else 0.
  Every  1 - ok  is 0 or 1, and a sum of non-negative numbers is zero exactly when all of them are zero; so pair is
  the indicator of "at every k, the diagonal entry attains the row maximum iff the label is 1".  With the mask 0 or 1
  the product is the block term of the fourth total; exchanging the sums over r and ii gives the block total.
-/
import proofs.«421995_j52424370815346_4_alg».proof.Proof.KCommon
import Mathlib.Algebra.Order.BigOperators.Group.Finset

noncomputable section

namespace Cert.KernelIdeal.KValue

open Idealize.ShloMosaic Idealize.ShloMosaic.ValueIdx Cert.KernelIdeal Cert.KernelIdeal.Gen

/-- A decided proposition, as a one-bit word widened to 32 bits and read as a signed integer, is 1 or 0. -/
private theorem ind_cast (c : Prop) [Decidable c] :
    ((((BitVec.ofBool (decide c)).setWidth 32).toInt : ℝ) : EReal) = if c then 1 else 0 := by
  by_cases h : c
  · simp [h]
  · simp [h]

/-- The reduced index with the coordinate of the summed axis put back, by coordinates: row r of [128] with the unit
    column restored is (r, 0) of [128, 1]. -/
private theorem lift_a (r : Fin 128) (u : Fin 1) : reduces_S128x1_S128.lift (ix1 r) u = ix2 r 0 := by
  funext c; apply Fin.ext
  match c with
  | ⟨0, _⟩ => rfl
  | ⟨1, _⟩ => exact Nat.lt_one_iff.mp u.isLt

/-- (r, 0) of [128, 1] with the block row ii restored in front is (ii, r, 0) of [16, 128, 1]. -/
private theorem lift_b (r : Fin 128) (ii : Fin 16) : reduces_S16x128x1_S128x1.lift (ix2 r 0) ii = ix3 ii r 0 := by
  funext c; apply Fin.ext
  match c with
  | ⟨0, _⟩ => rfl
  | ⟨1, _⟩ => rfl
  | ⟨2, _⟩ => rfl

/-- (ii, r, 0) of [16, 128, 1] with the leading unit axis restored is (0, ii, r, 0) of [1, 16, 128, 1]. -/
private theorem lift_c (r : Fin 128) (ii : Fin 16) (u : Fin 1) :
    reduces_S1x16x128x1_S16x128x1.lift (ix3 ii r 0) u = ix4 0 ii r 0 := by
  funext c; apply Fin.ext
  match c with
  | ⟨0, _⟩ => exact Nat.lt_one_iff.mp u.isLt
  | ⟨1, _⟩ => rfl
  | ⟨2, _⟩ => rfl
  | ⟨3, _⟩ => rfl

/-- (0, ii, r) of [1, 16, 128] with the label position k restored last is (0, ii, r, k) of [1, 16, 128, 32]. -/
private theorem lift_d (r : Fin 128) (ii : Fin 16) (k : Fin 32) :
    reduces_S1x16x128x32_S1x16x128.lift (ix3 0 ii r) k = ix4 0 ii r k := by
  funext c; apply Fin.ext
  match c with
  | ⟨0, _⟩ => rfl
  | ⟨1, _⟩ => rfl
  | ⟨2, _⟩ => rfl
  | ⟨3, _⟩ => rfl

/-- The f32 word of 1.0 denotes 1. -/
private theorem one_f32 : Ideal.ofBits .f32 0x3F800000#32 = 1 := IdealRules.sign_bit.ideal_onePat .f32

/-- The last payload at row r: the sum over the sixteen block rows of the pair indicator times the mask. -/
private theorem pay13_apply (v7 v19 v21 : FVec Ideal S1x16x128x32 .f32) (v10 : FVec Ideal S1x16x128x1 .f32) (r : Fin 128) :
    k0_pay13 (F := Ideal) v7 v10 v19 v21 (ix2 r 0)
      = ∑ ii : Fin 16,
          (if (∑ k : Fin 32, ((1 : EReal) - (if k0_pay9 (F := Ideal) v19 v21 (ix4 0 ii r k) = v7 (ix4 0 ii r k) then 1 else 0))) = 0
            then (1 : EReal) else 0) * v10 (ix4 0 ii r 0) := by
  unfold k0_pay13
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ _ _ _ _ _).trans ?_
  refine (Fin.sum_univ_one _).trans ?_
  rw [lift_a]
  refine (Ideal.multiReduction_add_single _ _ _ _ _ _).trans ?_
  refine Finset.sum_congr rfl fun (ii : Fin 16) _ => ?_
  rw [lift_b]
  refine (Ideal.multiReduction_add_single _ _ _ _ _ _).trans ?_
  refine (Fin.sum_univ_one _).trans ?_
  rw [lift_c, mulf_apply]
  congr 1
  rw [sitofp_apply, extui_apply, cmpf_apply]
  refine (ind_cast _).trans ?_
  refine if_congr (Eq.congr ?_ ?_) rfl rfl
  · refine (shapeCast_apply _ _ (ix4 (0 : Fin 1) ii r (0 : Fin 1)) (ix3 (0 : Fin 1) ii r) ?_).trans ?_
    · rw [Shape.rowMajor_val_three, Shape.rowMajor_val_four]
      show (0 * 16 + ii.val) * 128 + r.val = ((0 * 16 + ii.val) * 128 + r.val) * 1 + 0
      omega
    refine (Ideal.multiReduction_add_single _ _ _ _ _ _).trans ?_
    refine Finset.sum_congr rfl fun (k : Fin 32) _ => ?_
    rw [lift_d, subf_apply, broadcast_apply, sitofp_apply, extui_apply, cmpf_apply]
    refine congrArg₂ (· - ·) one_f32 (ind_cast _)
  · exact Ideal.ofBits_zero_f32

/-- Over the extended reals 1 - 1 = 0 (both are finite). -/
private theorem one_sub_one : (1 : EReal) - 1 = 0 := by
  rw [← EReal.coe_one, ← EReal.coe_sub, sub_self, EReal.coe_zero]

/-- A sum of numbers  1 - [c k],  each 0 or 1, vanishes exactly when every c k holds: the terms are non-negative,
    so the sum is zero iff each term is. -/
private theorem sum_ind_eq_zero {n : Nat} (c : Fin n → Prop) [DecidablePred c] :
    (∑ k : Fin n, ((1 : EReal) - (if c k then 1 else 0))) = 0 ↔ ∀ k, c k := by
  have h1 : ∀ k, ((1 : EReal) - (if c k then 1 else 0)) = if c k then 0 else 1 := by
    intro k
    by_cases h : c k
    · rw [if_pos h, if_pos h]; exact one_sub_one
    · rw [if_neg h, if_neg h, sub_zero]
  simp only [h1]
  rw [Finset.sum_eq_zero_iff_of_nonneg (fun k _ => by split_ifs <;> simp)]
  constructor
  · intro h k
    by_contra hk
    have := h k (Finset.mem_univ k)
    rw [if_neg hk] at this
    exact one_ne_zero this
  · intro h k _
    rw [if_pos (h k)]

theorem pay_pair (xb : Vec Ideal S1x16x128x32x32 .f32) (gb : Vec Ideal S1x16x128x32 .i32) (ob : Vec Ideal S16x128x1 .f32)
    (hb : ∀ y, gb y = 0#32 ∨ gb y = 1#32) (ho : ∀ y, ob y = 0 ∨ ob y = 1) :
    (∑ r : Fin 128, k0_pay13 (F := Ideal) (k0_pay2 gb) (k0_pay3 ob) (k0_pay4 xb) (k0_pay5 xb) (ix2 r 0)) = Cert.Spec.B3 xb gb ob := by
  unfold Cert.Spec.B3
  rw [Finset.sum_comm]
  refine Finset.sum_congr rfl fun r _ => ?_
  rw [pay13_apply]
  refine Finset.sum_congr rfl fun ii _ => ?_
  rw [pay3_apply]
  -- at one label position: the two indicators agree iff "attains the maximum" and "label is 1" are equivalent
  have hiff : (∀ k : Fin 32, k0_pay9 (F := Ideal) (k0_pay4 xb) (k0_pay5 xb) (ix4 0 ii r k) = k0_pay2 gb (ix4 0 ii r k))
      ↔ ∀ k : Fin 32, (Cert.Spec.dgB xb ii r k = Cert.Spec.rmaxB xb ii r k ↔ gb (ix4 0 ii r k) = 1#32) := by
    refine forall_congr' fun k => ?_
    rw [pay9_apply, pay4_apply, pay5_apply, pay2_apply]
    rcases hb (ix4 0 ii r k) with h0 | h1
    · rw [h0]
      by_cases hd : Cert.Spec.dgB xb ii r k = Cert.Spec.rmaxB xb ii r k
      · simp [hd]
      · simp [hd]
    · rw [h1]
      by_cases hd : Cert.Spec.dgB xb ii r k = Cert.Spec.rmaxB xb ii r k
      · simp [hd]
      · simp [hd]
  -- the 32 terms 1 - ok sum to zero iff every position is predicted correctly
  have hcond : (∑ k : Fin 32, ((1 : EReal) - (if k0_pay9 (F := Ideal) (k0_pay4 xb) (k0_pay5 xb) (ix4 0 ii r k) = k0_pay2 gb (ix4 0 ii r k) then 1 else 0))) = 0
      ↔ ∀ k : Fin 32, (Cert.Spec.dgB xb ii r k = Cert.Spec.rmaxB xb ii r k ↔ gb (ix4 0 ii r k) = 1#32) :=
    (sum_ind_eq_zero _).trans hiff
  unfold Cert.Spec.cb3
  by_cases hall : ∀ k : Fin 32, (Cert.Spec.dgB xb ii r k = Cert.Spec.rmaxB xb ii r k ↔ gb (ix4 0 ii r k) = 1#32)
  · rw [if_pos (hcond.mpr hall)]
    rcases ho (ix3 ii r 0) with h0 | h1
    · rw [h0]; simp
    · rw [h1]; simp [hall]
  · rw [if_neg (fun h => hall (hcond.mp h))]
    simp [hall]

end Cert.KernelIdeal.KValue

end
-- ==== Proof.KBlocks.lean ====
/-
  What the three input windows hold at grid point t, read off the whole arrays: batch t / 8, rows 16 (t mod 8) + ii
  of the probabilities and of the labels, and the same rows of the off-diagonal mask, which the host builds before
  the launch as 1 - [i = j].

  A window's block at point t starts, on every axis, at (its index at t) × (the block's extent on that axis); the
  index maps send t = 8 b + i to (b, i, 0, 0, 0), (b, i, 0, 0) and (i, 0, 0).  The mask array is the [128,128,1]
  broadcast of the conversion to a real of the one-bit word  not (iota₀ + 0 = iota₁): at (i, j, 0) the words of i and j
  (both below 128, so below 2³²) are equal exactly when i = j, which makes the entry 0 on the diagonal and 1 off it.
-/
import proofs.«421995_j52424370815346_4_alg».proof.Proof.Gen.KernelIdeal.Frame
import proofs.«421995_j52424370815346_4_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.KValue

open Idealize.ShloMosaic Idealize.ShloMosaic.TcCoe Idealize.ShloMosaic.ValueIdx Cert.KernelIdeal Cert.KernelIdeal.Gen

variable (m : (ℓ : Loc nD τ sig) → Buf (Elt Ideal) ℓ)

/-- A grid point as a number below 32. -/
def pt (t : Fin cfg0.N) : Fin 32 := ⟨t.val, lt_of_lt_of_eq t.isLt N_0⟩

/-- Window 0's block index at point t is (t / 8, t mod 8, 0, 0, 0). -/
private theorem index0 : ∀ t : Fin cfg0.N, win0_0.index t 0 = t.val / 8 ∧ win0_0.index t 1 = t.val % 8 ∧ win0_0.index t 2 = 0
    ∧ win0_0.index t 3 = 0 ∧ win0_0.index t 4 = 0 :=
  (by decide +kernel : ∀ t : Fin grid0.N, win0_0.index t 0 = t.val / 8 ∧ win0_0.index t 1 = t.val % 8 ∧ win0_0.index t 2 = 0
    ∧ win0_0.index t 3 = 0 ∧ win0_0.index t 4 = 0)

/-- Window 1's block index at point t is (t / 8, t mod 8, 0, 0). -/
private theorem index1 : ∀ t : Fin cfg0.N, win0_1.index t 0 = t.val / 8 ∧ win0_1.index t 1 = t.val % 8 ∧ win0_1.index t 2 = 0
    ∧ win0_1.index t 3 = 0 :=
  (by decide +kernel : ∀ t : Fin grid0.N, win0_1.index t 0 = t.val / 8 ∧ win0_1.index t 1 = t.val % 8 ∧ win0_1.index t 2 = 0
    ∧ win0_1.index t 3 = 0)

/-- Window 2's block index at point t is (t mod 8, 0, 0). -/
private theorem index2 : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)

theorem iblk0_eq (c : Dev nD) (t : Fin cfg0.N) :
    (iblk m c 0 t : Vec Ideal S1x16x128x32x32 .f32) = Cert.Spec.xBlk (m ((c : Thread nD τ).loc main_arg0)) (pt t) := by
  obtain ⟨h0, h1, h2, h3, h4⟩ := index0 t
  funext y
  unfold iblk Cert.Spec.xBlk
  rw [View.read_apply]
  show V m c main_arg0 _ = m ((c : Thread nD τ).loc main_arg0) _
  rw [V_main_arg0]
  congr 1
  funext a
  apply Fin.ext
  have y0 : (y 0).val < 1 := (y 0).isLt
  match a with
  | ⟨0, _⟩ => show win0_0.index t 0 * 1 + 1 * (y 0).val = t.val / 8; rw [h0]; omega
  | ⟨1, _⟩ => show win0_0.index t 1 * 16 + 1 * (y 1).val = 16 * (t.val % 8) + (y 1).val; rw [h1]; omega
  | ⟨2, _⟩ => show win0_0.index t 2 * 128 + 1 * (y 2).val = (y 2).val; rw [h2]; omega
  | ⟨3, _⟩ => show win0_0.index t 3 * 32 + 1 * (y 3).val = (y 3).val; rw [h3]; omega
  | ⟨4, _⟩ => show win0_0.index t 4 * 32 + 1 * (y 4).val = (y 4).val; rw [h4]; omega

theorem iblk1_eq (c : Dev nD) (t : Fin cfg0.N) :
    (iblk m c 1 t : Vec Ideal S1x16x128x32 .i32) = Cert.Spec.gBlk (m ((c : Thread nD τ).loc main_arg1)) (pt t) := by
  obtain ⟨h0, h1, h2, h3⟩ := index1 t
  funext y
  unfold iblk Cert.Spec.gBlk
  rw [View.read_apply]
  show V m c main_arg1 _ = m ((c : Thread nD τ).loc main_arg1) _
  rw [V_main_arg1]
  congr 1
  funext a
  apply Fin.ext
  have y0 : (y 0).val < 1 := (y 0).isLt
  match a with
  | ⟨0, _⟩ => show win0_1.index t 0 * 1 + 1 * (y 0).val = t.val / 8; rw [h0]; omega
  | ⟨1, _⟩ => show win0_1.index t 1 * 16 + 1 * (y 1).val = 16 * (t.val % 8) + (y 1).val; rw [h1]; omega
  | ⟨2, _⟩ => show win0_1.index t 2 * 128 + 1 * (y 2).val = (y 2).val; rw [h2]; omega
  | ⟨3, _⟩ => show win0_1.index t 3 * 32 + 1 * (y 3).val = (y 3).val; rw [h3]; omega

/-- One entry of the mask as a word computation: for i, j below 128, the real of the one-bit word
    not (word i + 0 = word j) is 0 when i = j and 1 otherwise (the words of numbers below 2³² are equal only for
    equal numbers). -/
private theorem offDiag_word (i j : Nat) (hi : i < 128) (hj : j < 128) :
    (FloatOps.uitofp (F := Ideal) .f32 (~~~ IntOp.cmpi .eq (IntOp.addi (BitVec.ofNat 32 i) 0#32) (BitVec.ofNat 32 j)) : EReal)
      = if i = j then 0 else 1 := by
  have hadd : IntOp.addi (BitVec.ofNat 32 i) 0#32 = BitVec.ofNat 32 i := BitVec.add_zero _
  rw [hadd]
  show ((((~~~ BitVec.ofBool (BitVec.ofNat 32 i == BitVec.ofNat 32 j)).toNat : ℕ) : ℝ) : EReal) = _
  by_cases h : i = j
  · subst h
    rw [if_pos rfl, beq_self_eq_true]
    show (((0 : ℕ) : ℝ) : EReal) = 0
    simp
  · have hne : (BitVec.ofNat 32 i == BitVec.ofNat 32 j) = false := by
      rw [beq_eq_false_iff_ne]
      intro e
      apply h
      have e' := congrArg BitVec.toNat e
      simp only [BitVec.toNat_ofNat] at e'
      rw [Nat.mod_eq_of_lt (by omega), Nat.mod_eq_of_lt (by omega)] at e'
      exact e'
    rw [if_neg h, hne]
    show (((1 : ℕ) : ℝ) : EReal) = 1
    simp

/-- The mask array the region finds, as the host operations' term. -/
private theorem V_mask (c : Dev nD) : (V m c main_v7 : S128x128x1.Idx → EReal)
    = broadcastInDim S128x128x1 ![0, 1] bcast_S128x128_S128x128x1_0_1
        (uitofp (F := Ideal) .f32 (noti (cmpi .eq (addi (iotaInDim S128x128 32 0)
          (broadcastInDim S128x128 ![] bcast_S_S128x128 (constantI S_ 32 0#32))) (iotaInDim S128x128 32 1)))) := by
  show StableHlo.after hostOps0 (fun b => m (c, b)) (Proc.devRef .tc main_v7) = _
  after_results

/-- The mask array at (i, j, 0): 0 on the diagonal, 1 off it. -/
private theorem V_mask_apply (c : Dev nD) (j : S128x128x1.Idx) :
    (V m c main_v7 : S128x128x1.Idx → EReal) j = (if (j 0).val = (j 1).val then 0 else 1 : EReal) := by
  rw [V_mask]
  refine (broadcastInDim_apply _ _ _ j (ix2 (j 0) (j 1))
    (fun a => by match a with | ⟨0, _⟩ => rfl | ⟨1, _⟩ => rfl)).trans ?_
  exact offDiag_word (j 0).val (j 1).val (j 0).isLt (j 1).isLt

theorem iblk2_eq (c : Dev nD) (t : Fin cfg0.N) :
    (iblk m c 2 t : Vec Ideal S16x128x1 .f32) = Cert.Spec.oBlk (pt t) := by
  obtain ⟨h0, h1, h2⟩ := index2 t
  funext y
  unfold iblk Cert.Spec.oBlk
  rw [View.read_apply]
  show V m c main_v7 _ = _
  rw [V_mask_apply]
  have e0 : ((((cfg0.win 2).blk t).view.emb y) 0).val = 16 * (t.val % 8) + (y 0).val := by
    show win0_2.index t 0 * 16 + 1 * (y 0).val = _; rw [h0]; omega
  have e1 : ((((cfg0.win 2).blk t).view.emb y) 1).val = (y 1).val := by
    show win0_2.index t 1 * 128 + 1 * (y 1).val = _; rw [h1]; omega
  rw [e0, e1]
  rfl

end Cert.KernelIdeal.KValue

end
-- ==== Proof.KTail.lean ====
/-
  The host lines after the launch: from the [8,128] result array A, the four entries A(0,0) … A(0,3) are cut out as
  [0:1, c:c+1] slices, re-shaped to scalars, and divided: the first by the two constants one after the other, the third by
  the second, the fourth by a constant.  A one-entry slice re-shaped to a scalar is the entry itself; the quotient of
  scalars is the quotient of the extended reals.
-/
import proofs.«421995_j52424370815346_4_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen
open Idealize.ShloMosaic.TcCoe Idealize.SL.Sem

/-- The [0:1, c:c+1] slice of an [8,128] array, re-shaped to a scalar, holds the entry (0, c). -/
private theorem slice_scalar (A : Vec Ideal S8x128 .f32) (c : Fin 128) (h : S8x128.Slices ![0, c.val] S1x1)
    (h' : S1x1.ShapeCasts S_) (i : S_.Idx) :
    shapeCast S_ (extractStridedSlice S1x1 ![0, c.val] A h) h' i = A (ix2 0 c) := by
  refine (shapeCast_apply _ h' i (ix2 0 0) ?_).trans ?_
  · -- both shapes have one entry: its row-major position is 0
    have h1 := (Shape.rowMajor S1x1 (ix2 0 0)).isLt
    have h2 := (Shape.rowMajor S_ i).isLt
    have e1 : S1x1.numel = 1 := by decide
    have e2 : S_.numel = 1 := by decide
    omega
  · refine extractStridedSlice_apply _ A h (ix2 0 0) (ix2 0 c) (fun a => ?_)
    match a with
    | ⟨0, _⟩ => rfl
    | ⟨1, _⟩ => rfl

theorem tail18 (W : Valuation τ sig (Elt Ideal)) (A : Vec Ideal S8x128 .f32)
    (hW : W (Proc.devRef .tc main_v8) = A) :
    StableHlo.after (hostOps1 (F := Ideal)) W (Proc.devRef .tc main_v18)
      = fun _ => Ideal.div (Ideal.div (A (ix2 0 0)) (Ideal.ofBits .f32 0x48FE0000#32)) (Ideal.ofBits .f32 0x40800000#32) := by
  after_results
  rw [hW]
  funext i
  exact congrArg (fun z => Ideal.div (Ideal.div z (Ideal.ofBits .f32 0x48FE0000#32)) (Ideal.ofBits .f32 0x40800000#32))
    (slice_scalar A 0 slices_S8x128_S1x1_0_0 shapeCasts_S1x1_S_ i)

theorem tail19 (W : Valuation τ sig (Elt Ideal)) (A : Vec Ideal S8x128 .f32)
    (hW : W (Proc.devRef .tc main_v8) = A) :
    StableHlo.after (hostOps1 (F := Ideal)) W (Proc.devRef .tc main_v19)
      = fun _ => Ideal.div (A (ix2 0 2)) (A (ix2 0 1)) := by
  after_results
  rw [hW]
  funext i
  exact congrArg₂ Ideal.div (slice_scalar A 2 slices_S8x128_S1x1_0_2 shapeCasts_S1x1_S_ i)
    (slice_scalar A 1 slices_S8x128_S1x1_0_1 shapeCasts_S1x1_S_ i)

theorem tail20 (W : Valuation τ sig (Elt Ideal)) (A : Vec Ideal S8x128 .f32)
    (hW : W (Proc.devRef .tc main_v8) = A) :
    StableHlo.after (hostOps1 (F := Ideal)) W (Proc.devRef .tc main_v20)
      = fun _ => Ideal.div (A (ix2 0 3)) (Ideal.ofBits .f32 0x477E0000#32) := by
  after_results
  rw [hW]
  funext i
  exact congrArg (fun z => Ideal.div z (Ideal.ofBits .f32 0x477E0000#32))
    (slice_scalar A 3 slices_S8x128_S1x1_0_3 shapeCasts_S1x1_S_ i)

end Cert.KernelIdeal.KValue

end
-- ==== Proof.SpecSums.lean ====
/-
  The four totals, block by block: the 32 grid points with their 16 rows each enumerate batch and row exactly once
  (t ↦ (t / 8, 16 (t mod 8) + ii) is a bijection of 32 × 16 onto 4 × 128), and a block's mask entry is 1 exactly off
  the diagonal, so the per-point totals add up to the whole-array totals.
-/
import proofs.«421995_j52424370815346_4_alg».proof.Proof.Spec
import Mathlib.Data.Fintype.BigOperators
import Mathlib.Algebra.BigOperators.Group.Finset.Defs

noncomputable section

namespace Cert.Spec

open Idealize.ShloMosaic Idealize.ShloMosaic.ValueIdx

/-! ## The mask entry of a block -/

/-- The mask block of point t is 1 at (ii, j) exactly when the global row 16 (t mod 8) + ii differs from j
    (the entry is 0 or 1, and 0 ≠ 1). -/
private theorem oBlk_eq_one_iff (t : Fin 32) (ii : Fin 16) (j : Fin 128) :
    oBlk t (ix3 ii j 0) = 1 ↔ rowOf t ii ≠ j := by
  show (if (rowOf t ii).val = j.val then (0 : EReal) else 1) = 1 ↔ rowOf t ii ≠ j
  by_cases h : rowOf t ii = j
  · have hv : (rowOf t ii).val = j.val := congrArg Fin.val h
    rw [if_pos hv]
    exact ⟨fun e => absurd e zero_ne_one, fun e => absurd h e⟩
  · have hv : ¬ (rowOf t ii).val = j.val := fun e => h (Fin.ext e)
    rw [if_neg hv]
    exact ⟨fun _ => h, fun _ => rfl⟩

/-! ## A block's terms are the whole-array terms at batch t / 8, row 16 (t mod 8) + ii -/

private theorem cb0_blk (x : SX.Idx → EReal) (g : SG.Idx → BitVec 32) (t : Fin 32) (ii : Fin 16) (j : Fin 128) (k : Fin 32) :
    cb0 (xBlk x t) (gBlk g t) (oBlk t) ii j k = t0 x g (bOf t) (rowOf t ii) j k := by
  unfold cb0 t0
  by_cases h : rowOf t ii = j
  · rw [if_neg (fun e => (oBlk_eq_one_iff t ii j).mp e h), if_pos h]
  · rw [if_pos ((oBlk_eq_one_iff t ii j).mpr h), if_neg h]
    rfl

private theorem cb1_blk (g : SG.Idx → BitVec 32) (t : Fin 32) (ii : Fin 16) (j : Fin 128) (k : Fin 32) :
    cb1 (gBlk g t) (oBlk t) ii j k = t1 g (bOf t) (rowOf t ii) j k := by
  unfold cb1 t1
  exact if_congr (and_congr (oBlk_eq_one_iff t ii j) Iff.rfl) rfl rfl

private theorem cb2_blk (x : SX.Idx → EReal) (g : SG.Idx → BitVec 32) (t : Fin 32) (ii : Fin 16) (j : Fin 128) (k : Fin 32) :
    cb2 (xBlk x t) (gBlk g t) (oBlk t) ii j k = t2 x g (bOf t) (rowOf t ii) j k := by
  unfold cb2 t2
  exact if_congr (and_congr (oBlk_eq_one_iff t ii j) Iff.rfl) rfl rfl

private theorem cb3_blk (x : SX.Idx → EReal) (g : SG.Idx → BitVec 32) (t : Fin 32) (ii : Fin 16) (j : Fin 128) :
    cb3 (xBlk x t) (gBlk g t) (oBlk t) ii j = t3 x g (bOf t) (rowOf t ii) j := by
  unfold cb3 t3
  exact if_congr (and_congr (oBlk_eq_one_iff t ii j) Iff.rfl) rfl rfl

/-! ## Regrouping 32 × 16 as 4 × 128 -/

/-- (t, ii) ↦ (t / 8, 16 (t mod 8) + ii), with inverse (b, i) ↦ (8 b + i / 16, i mod 16). -/
private def gridEquiv : Fin 32 × Fin 16 ≃ Fin 4 × Fin 128 where
  toFun p := (bOf p.1, rowOf p.1 p.2)
  invFun q := (⟨8 * q.1.val + q.2.val / 16, by have := q.1.isLt; have := q.2.isLt; omega⟩,
               ⟨q.2.val % 16, by omega⟩)
  left_inv := by
    rintro ⟨t, ii⟩
    have ht := t.isLt
    have hi := ii.isLt
    apply Prod.ext
    · apply Fin.ext
      show 8 * (t.val / 8) + (16 * (t.val % 8) + ii.val) / 16 = t.val
      omega
    · apply Fin.ext
      show (16 * (t.val % 8) + ii.val) % 16 = ii.val
      omega
  right_inv := by
    rintro ⟨b, i⟩
    have hb := b.isLt
    have hi := i.isLt
    apply Prod.ext
    · apply Fin.ext
      show (8 * b.val + i.val / 16) / 8 = b.val
      omega
    · apply Fin.ext
      show 16 * ((8 * b.val + i.val / 16) % 8) + i.val % 16 = i.val
      omega

/-- A sum over the 32 points and their 16 rows is the sum over the 4 batches and 128 rows. -/
private theorem sum_grid {M : Type} [AddCommMonoid M] (f : Fin 4 → Fin 128 → M) :
    ∑ t : Fin 32, ∑ ii : Fin 16, f (bOf t) (rowOf t ii) = ∑ b : Fin 4, ∑ i : Fin 128, f b i := by
  rw [← Fintype.sum_prod_type' (fun t ii => f (bOf t) (rowOf t ii)), ← Fintype.sum_prod_type' f]
  exact Fintype.sum_equiv gridEquiv _ _ (fun _ => rfl)

/-! ## The four totals -/

theorem sum_P0 (x : SX.Idx → EReal) (g : SG.Idx → BitVec 32) : ∑ t : Fin 32, P0 x g t = S0 x g := by
  unfold P0 B0 S0
  simp only [cb0_blk]
  exact sum_grid (fun b i => ∑ j : Fin 128, ∑ k : Fin 32, t0 x g b i j k)
theorem sum_P1 (g : SG.Idx → BitVec 32) : ∑ t : Fin 32, P1 g t = S1 g := by
  unfold P1 B1 S1
  simp only [cb1_blk]
  exact sum_grid (fun b i => ∑ j : Fin 128, ∑ k : Fin 32, t1 g b i j k)
theorem sum_P2 (x : SX.Idx → EReal) (g : SG.Idx → BitVec 32) : ∑ t : Fin 32, P2 x g t = S2 x g := by
  unfold P2 B2 S2
  simp only [cb2_blk]
  exact sum_grid (fun b i => ∑ j : Fin 128, ∑ k : Fin 32, t2 x g b i j k)
theorem sum_P3 (x : SX.Idx → EReal) (g : SG.Idx → BitVec 32) : ∑ t : Fin 32, P3 x g t = S3 x g := by
  unfold P3 B3 S3
  simp only [cb3_blk]
  exact sum_grid (fun b i => ∑ j : Fin 128, t3 x g b i j)

end Cert.Spec

end
-- ==== Proof.KRun.lean ====
/-
  The kernel's run read as values.  The output block is carried across the 32 grid points: after point n its row 0
  holds, in columns 0 to 3, the sums over the points 0..n of the four per-point totals (induction on the point: the
  first point starts from the zero block, every later point adds to what the point before left).  The block is
  written back once, after the last point, and is the whole [8,128] result array; the host lines after the launch
  read its entries (0,0) … (0,3) and divide.  With the per-point totals adding up to the whole-array totals, the
  three results are the loss, the single-label accuracy and the all-labels accuracy of the specification.
-/
import proofs.«421995_j52424370815346_4_alg».proof.Proof.KPiece
import proofs.«421995_j52424370815346_4_alg».proof.Proof.KStep
import proofs.«421995_j52424370815346_4_alg».proof.Proof.KLoss
import proofs.«421995_j52424370815346_4_alg».proof.Proof.KCounts
import proofs.«421995_j52424370815346_4_alg».proof.Proof.KPair
import proofs.«421995_j52424370815346_4_alg».proof.Proof.KBlocks
import proofs.«421995_j52424370815346_4_alg».proof.Proof.KTail
import proofs.«421995_j52424370815346_4_alg».proof.Proof.SpecSums
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The two argument arrays on core `c`. -/
abbrev xA (c : Dev nD) : Cert.Spec.SX.Idx → EReal := m ((c : Thread nD τ).loc main_arg0)
abbrev gA (c : Dev nD) : Cert.Spec.SG.Idx → BitVec 32 := m ((c : Thread nD τ).loc main_arg1)

theorem oBlk_01 (t : Fin 32) (y : Cert.Spec.BO.Idx) : Cert.Spec.oBlk t y = 0 ∨ Cert.Spec.oBlk t y = 1 := by
  unfold Cert.Spec.oBlk
  split
  · exact Or.inl rfl
  · exact Or.inr rfl

/-- One point's update at the four entries: each gains its per-point total. -/
theorem step_at (x : Cert.Spec.SX.Idx → EReal) (g : Cert.Spec.SG.Idx → BitVec 32) (hb : ∀ q, g q = 0#32 ∨ g q = 1#32) (t : Fin 32)
    (x0 : Vec Ideal S1x16x128x32x32 .f32) (x1 : Vec Ideal S1x16x128x32 .i32) (x2 : Vec Ideal S16x128x1 .f32)
    (e0 : x0 = Cert.Spec.xBlk x t) (e1 : x1 = Cert.Spec.gBlk g t) (e2 : x2 = Cert.Spec.oBlk t) (xo : Vec Ideal S8x128 .f32) :
    step x0 x1 x2 xo (ix2 0 0) = xo (ix2 0 0) + Cert.Spec.P0 x g t
    ∧ step x0 x1 x2 xo (ix2 0 1) = xo (ix2 0 1) + Cert.Spec.P1 g t
    ∧ step x0 x1 x2 xo (ix2 0 2) = xo (ix2 0 2) + Cert.Spec.P2 x g t
    ∧ step x0 x1 x2 xo (ix2 0 3) = xo (ix2 0 3) + Cert.Spec.P3 x g t := by
  subst e0 e1 e2
  have hg : ∀ y, Cert.Spec.gBlk g t y = 0#32 ∨ Cert.Spec.gBlk g t y = 1#32 := fun y => hb _
  unfold step
  refine ⟨(pay14_apply0 _ _ _ _ xo).trans ?_, (pay14_apply1 _ _ _ _ xo).trans ?_, (pay14_apply2 _ _ _ _ xo).trans ?_,
    (pay14_apply3 _ _ _ _ xo).trans ?_⟩
  · rw [pay_loss _ _ _ hg (oBlk_01 t)]; rfl
  · rw [pay_count _ _ hg (oBlk_01 t)]; rfl
  · rw [pay_correct _ _ _ hg (oBlk_01 t)]; rfl
  · rw [pay_pair _ _ _ hg (oBlk_01 t)]; rfl

/-- A per-point total as a function of the point's number. -/
def Pn (f : Fin 32 → EReal) (s : ℕ) : EReal := if h : s < 32 then f ⟨s, h⟩ else 0

theorem Pn_pt (f : Fin 32 → EReal) (t : Fin cfg0.N) : Pn f t.val = f (pt t) := by
  unfold Pn pt
  rw [dif_pos (lt_of_lt_of_eq t.isLt N_0)]

/-- What row 0 of the output block holds after point `n`: the running sums of the four per-point totals. -/
theorem outs_entries (c : Dev nD) (hb : ∀ q, gA m c q = 0#32 ∨ gA m c q = 1#32) : ∀ (n : ℕ) (h : n < cfg0.N),
    outsAt0 m c n h (ix2 0 0) = ∑ s ∈ Finset.range (n + 1), Pn (Cert.Spec.P0 (xA m c) (gA m c)) s
    ∧ outsAt0 m c n h (ix2 0 1) = ∑ s ∈ Finset.range (n + 1), Pn (Cert.Spec.P1 (gA m c)) s
    ∧ outsAt0 m c n h (ix2 0 2) = ∑ s ∈ Finset.range (n + 1), Pn (Cert.Spec.P2 (xA m c) (gA m c)) s
    ∧ outsAt0 m c n h (ix2 0 3) = ∑ s ∈ Finset.range (n + 1), Pn (Cert.Spec.P3 (xA m c) (gA m c)) s
  | 0, h => by
    have e : outsAt0 m c 0 h = step (iblk m c 0 ⟨0, h⟩) (iblk m c 1 ⟨0, h⟩) (iblk m c 2 ⟨0, h⟩) (k0_pay1 (F := Ideal)) :=
      (outsAt0_A m c ⟨0, h⟩ rfl).trans (out_A ..)
    obtain ⟨s0, s1, s2, s3⟩ := step_at (xA m c) (gA m c) hb (pt ⟨0, h⟩) _ _ _ (iblk0_eq m c ⟨0, h⟩) (iblk1_eq m c ⟨0, h⟩)
      (iblk2_eq m c ⟨0, h⟩) (k0_pay1 (F := Ideal))
    rw [e, Finset.sum_range_one, Finset.sum_range_one, Finset.sum_range_one, Finset.sum_range_one]
    refine ⟨s0.trans ?_, s1.trans ?_, s2.trans ?_, s3.trans ?_⟩ <;>
      (rw [pay1_apply, zero_add]; exact (Pn_pt _ ⟨0, h⟩).symm)
  | n + 1, h => by
    have hN : cfg0.N = 32 := N_0
    have hB : ¬(⟨n + 1, h⟩ : Fin cfg0.N).val % 32 = 0 := by dsimp only; omega
    have e : outsAt0 m c (n + 1) h = step (iblk m c 0 ⟨n + 1, h⟩) (iblk m c 1 ⟨n + 1, h⟩) (iblk m c 2 ⟨n + 1, h⟩)
        (outsAt0 m c n (Nat.lt_of_succ_lt h)) :=
      (outsAt0_B m c ⟨n + 1, h⟩ hB).trans (out_B ..)
    obtain ⟨i0, i1, i2, i3⟩ := outs_entries c hb n (Nat.lt_of_succ_lt h)
    obtain ⟨s0, s1, s2, s3⟩ := step_at (xA m c) (gA m c) hb (pt ⟨n + 1, h⟩) _ _ _ (iblk0_eq m c ⟨n + 1, h⟩)
      (iblk1_eq m c ⟨n + 1, h⟩) (iblk2_eq m c ⟨n + 1, h⟩) (outsAt0 m c n (Nat.lt_of_succ_lt h))
    rw [e]
    refine ⟨s0.trans ?_, s1.trans ?_, s2.trans ?_, s3.trans ?_⟩
    · rw [Finset.sum_range_succ _ (n + 1), i0]; exact congrArg _ (Pn_pt _ ⟨n + 1, h⟩).symm
    · rw [Finset.sum_range_succ _ (n + 1), i1]; exact congrArg _ (Pn_pt _ ⟨n + 1, h⟩).symm
    · rw [Finset.sum_range_succ _ (n + 1), i2]; exact congrArg _ (Pn_pt _ ⟨n + 1, h⟩).symm
    · rw [Finset.sum_range_succ _ (n + 1), i3]; exact congrArg _ (Pn_pt _ ⟨n + 1, h⟩).symm

/-- The sum over the 32 point numbers is the sum over the points. -/
theorem sum_Pn (f : Fin 32 → EReal) : ∑ s ∈ Finset.range (31 + 1), Pn f s = ∑ t : Fin 32, f t := by
  rw [← Fin.sum_univ_eq_sum_range (fun s => Pn f s) 32]
  exact Finset.sum_congr rfl fun t _ => by unfold Pn; rw [dif_pos t.isLt]

theorem h31 : 31 < cfg0.N := by rw [show cfg0.N = 32 from N_0]; decide

/-- The last point. -/
abbrev tLast : Fin cfg0.N := ⟨31, h31⟩

/-- The result array's contents: what the block holds after the last point. -/
abbrev result (c : Dev nD) : Buf (Elt Ideal) ((c : Thread nD τ).loc main_v8) := outsAt0 m c 31 h31

/-- The one write-back, after point 31: the block at offsets zero of the [8,128] array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h3 : t.val = 31 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v8.ty.shape.size a) = fun _ => 0 := funext fun a => by fin_cases a <;> decide
  exact (Memref.read_access_unit_zero (Elt Ideal) main_v8 hz' (fun a => by rw [congrFun hz' a]; simp) (result m c)).symm

/-- So the result array ends holding the block after the last point. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v8).slice (win0_3.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 8 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The host lines after the launch read row 0 of the result array and divide. -/
theorem post18 (c : Dev nD) :
    Pipeline.afterTail₀ cfgs (dats m) 0 (V0 m) [hostOps1] c main_v18
      = fun _ => Ideal.div (Ideal.div (result m c (ix2 0 0)) (Ideal.ofBits .f32 0x48FE0000#32)) (Ideal.ofBits .f32 0x40800000#32) := by
  unfold Pipeline.afterTail₀
  show StableHlo.after hostOps1 _ (Proc.devRef .tc main_v18) = _
  exact tail18 _ _ ((Pipeline.withArrays_arr spec0 launch0.win.arr_inj c _ _ 3).trans (final_o m c))

theorem post19 (c : Dev nD) :
    Pipeline.afterTail₀ cfgs (dats m) 0 (V0 m) [hostOps1] c main_v19
      = fun _ => Ideal.div (result m c (ix2 0 2)) (result m c (ix2 0 1)) := by
  unfold Pipeline.afterTail₀
  show StableHlo.after hostOps1 _ (Proc.devRef .tc main_v19) = _
  exact tail19 _ _ ((Pipeline.withArrays_arr spec0 launch0.win.arr_inj c _ _ 3).trans (final_o m c))

theorem post20 (c : Dev nD) :
    Pipeline.afterTail₀ cfgs (dats m) 0 (V0 m) [hostOps1] c main_v20
      = fun _ => Ideal.div (result m c (ix2 0 3)) (Ideal.ofBits .f32 0x477E0000#32) := by
  unfold Pipeline.afterTail₀
  show StableHlo.after hostOps1 _ (Proc.devRef .tc main_v20) = _
  exact tail20 _ _ ((Pipeline.withArrays_arr spec0 launch0.win.arr_inj c _ _ 3).trans (final_o m c))

/-- THE RUN, read: for binary labels the three results are the specification's, and the arguments are unchanged. -/
theorem run (hb : ∀ (c : Dev nD) q, gA m c q = 0#32 ∨ gA m c q = 1#32) :
    θ_run defs (onTc (τ := τ) (main (F := Ideal))) ⟨m, fun _ => 0, ρ⟩ fun r => ∀ c : Dev nD,
      r.2.mem ((c.tc : Thread nD τ).loc main_v18) = (fun _ => Cert.Spec.LOSS (xA m c) (gA m c))
      ∧ r.2.mem ((c.tc : Thread nD τ).loc main_v19) = (fun _ => Cert.Spec.SACC (xA m c) (gA m c))
      ∧ r.2.mem ((c.tc : Thread nD τ).loc main_v20) = (fun _ => Cert.Spec.MACC (xA m c) (gA m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e0, e1, e2, e3⟩ := outs_entries m c (hb c) 31 h31
    rw [sum_Pn, Cert.Spec.sum_P0] at e0
    rw [sum_Pn, Cert.Spec.sum_P1] at e1
    rw [sum_Pn, Cert.Spec.sum_P2] at e2
    rw [sum_Pn, Cert.Spec.sum_P3] at e3
    refine ⟨((h c).2 main_v18 (Pipeline.mem_restRefs_of main_v18 (by decide) (by decide))).trans ((post18 m c).trans ?_),
      ((h c).2 main_v19 (Pipeline.mem_restRefs_of main_v19 (by decide) (by decide))).trans ((post19 m c).trans ?_),
      ((h c).2 main_v20 (Pipeline.mem_restRefs_of main_v20 (by decide) (by decide))).trans ((post20 m c).trans ?_),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
    · funext _; unfold Cert.Spec.LOSS; rw [show result m c (ix2 0 0) = _ from e0]
    · funext _; unfold Cert.Spec.SACC; rw [show result m c (ix2 0 2) = _ from e2, show result m c (ix2 0 1) = _ from e1]
    · funext _; unfold Cert.Spec.MACC; rw [show result m c (ix2 0 3) = _ from e3])
    (run_main m ρ)

end Cert.KernelIdeal.KValue

end
-- ==== Proof.RefCommon.lean ====
/-
  The reference's building blocks read at an index: the diagonal (a gather along the two trailing axes at (k, k)),
  the row maximum (a fold of max from -∞), the off-diagonal bit, and the count of set bits of a mask as a sum of
  zeros and ones (the 32-bit sum of at most 2²¹ ones does not wrap).
-/
import proofs.«421995_j52424370815346_4_alg».proof.Proof.Gen.ReferenceIdeal.Read
import proofs.«421995_j52424370815346_4_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## The diagonal: a gather whose start index at position k is (k, k) -/

/-- A position below 32, as a 32-bit word, is not negative: the signed comparison with zero fails. -/
private theorem slt_zero_small (k : Nat) (hk : k < 32) : IntOp.cmpi .slt (BitVec.ofNat 32 k) 0#32 = 0#1 := by
  apply eq_zero_of_ne_one
  intro h
  have := (StableHlo.Predicate.slt_iff_toNat (a := BitVec.ofNat 32 k) (b := 0#32)
    (by simp only [BitVec.toNat_ofNat]; omega) (by decide)).1 h
  simp at this

/-- Both columns of the start-index table hold the row number: entry (k, c) is k. -/
private theorem table_apply (k : Fin 32) (c : Fin 2) :
    val_main_call0_v14 (F := Ideal) (ix2 k c) = BitVec.ofNat 32 k.val := by
  unfold val_main_call0_v14
  match c with
  | ⟨0, _⟩ =>
    rw [concatenate_pair_apply_left (t := S32x2) (s₁ := S32x1) (s₂ := S32x1) (1 : Fin 2) _ _ _ _ rfl (ix2 k (0 : Fin 1))
      (fun b => by match b with | ⟨0, _⟩ => rfl | ⟨1, _⟩ => rfl)]
    rw [val_main_call0_v12_apply, val_main_call0_v6_apply, val_main_call0_v3_apply, val_main_call0_v0_apply,
      val_main_call0_v2_apply, val_main_call0_c_apply]
    rw [show ((idx_main_call0_v12 (ix2 k (0 : Fin 1))) 0).val = k.val from rfl, slt_zero_small k.val k.isLt, select_zero]
  | ⟨1, _⟩ =>
    rw [concatenate_pair_apply_right (t := S32x2) (s₁ := S32x1) (s₂ := S32x1) (1 : Fin 2) _ _ _ _ rfl rfl (ix2 k (0 : Fin 1))
      (fun b hb => by match b with | ⟨0, _⟩ => rfl | ⟨1, _⟩ => exact absurd rfl hb) rfl]
    rw [val_main_call0_v13_apply, val_main_call0_v11_apply, val_main_call0_v8_apply, val_main_call0_v1_apply,
      val_main_call0_v7_apply, val_main_call0_c_1_apply]
    rw [show ((idx_main_call0_v13 (ix2 k (0 : Fin 1))) 0).val = k.val from rfl, slt_zero_small k.val k.isLt, select_zero]

/-- A position below 32, read signed off its word and clamped into [0, 31], is itself. -/
private theorem clamp_small (k : Nat) (hk : k < 32) : min (BitVec.ofNat 32 k).toInt.toNat (32 - 1) = k := by
  rw [StableHlo.Predicate.toInt_ofNat_small k (by omega)]
  simp only [Int.toNat_natCast]; omega

/-- The gather's dimension numbers: offset axes 0, 1, 2; the two trailing operand axes collapsed and start-indexed. -/
private abbrev gd := gather_S4x128x128x32x32_S32x2_S4x128x128x32_012_34_n_n_34_1_412812811

/-- On an operand axis the start index does not name the slice starts at 0. -/
private theorem start_zero (y : S4x128x128x32.Idx) (idx : IVec S32x2 32) (a : Fin 5) (ha : a ∉ gd.startIndexMap) :
    gd.start y idx a = 0 := by
  unfold GatherDims.start; rw [dif_neg ha]

/-- On a start-indexed axis (the c-th of the map) the slice starts at the table's entry (k, c), clamped: at k. -/
private theorem start_k (b : Fin 4) (i j : Fin 128) (k : Fin 32) (a : Fin 5) (ha : a ∈ gd.startIndexMap) (c : Fin 2)
    (hc : List.idxOf a gd.startIndexMap = c.val) :
    gd.start (ix4 b i j k) (val_main_call0_v14 (F := Ideal)) a = k.val := by
  unfold GatherDims.start; rw [dif_pos ha]
  have hsi : gd.siIdx (ix4 b i j k) ⟨List.idxOf a gd.startIndexMap, List.idxOf_lt_length_iff.2 ha⟩ = ix2 k c := by
    funext e; refine Fin.ext ?_
    match e with
    | ⟨0, _⟩ => rfl
    | ⟨1, _⟩ => exact hc
  rw [hsi, table_apply]
  have hsz : S4x128x128x32x32.size a - gd.sliceSizes a = 32 - 1 := by
    have : a = 3 ∨ a = 4 := by
      have : a ∈ ([3, 4] : List (Fin 5)) := ha
      simpa using this
    rcases this with rfl | rfl <;> rfl
  rw [hsz, clamp_small k.val k.isLt]

/-- The gathered diagonal. -/
theorem v1_apply (x0 : (⟨S4x128x128x32x32, .f32⟩ : BufTy).Contents (Elt Ideal)) (b : Fin 4) (i j : Fin 128) (k : Fin 32) :
    val_main_v1 (F := Ideal) x0 (ix4 b i j k) = Cert.Spec.dg x0 b i j k := by
  unfold val_main_v1 Host.gather Cert.Spec.dg
  congr 1
  funext a
  refine Fin.ext ?_
  show gd.start (ix4 b i j k) (val_main_call0_v14 (F := Ideal)) a + gd.batchCoord (ix4 b i j k) a + gd.offCoord (ix4 b i j k) a = _
  rw [GatherDims.batchCoord_eq_zero _ _ _ List.not_mem_nil, Nat.add_zero]
  match a with
  | ⟨0, _⟩ =>
    show gd.start _ _ (0 : Fin 5) + gd.offCoord _ (0 : Fin 5) = b.val
    rw [start_zero _ _ _ (show (0 : Fin 5) ∉ gd.startIndexMap by decide), Nat.zero_add]
    unfold GatherDims.offCoord; rw [dif_pos (show (0 : Fin 5) ∈ gd.sKept by decide)]; rfl
  | ⟨1, _⟩ =>
    show gd.start _ _ (1 : Fin 5) + gd.offCoord _ (1 : Fin 5) = i.val
    rw [start_zero _ _ _ (show (1 : Fin 5) ∉ gd.startIndexMap by decide), Nat.zero_add]
    unfold GatherDims.offCoord; rw [dif_pos (show (1 : Fin 5) ∈ gd.sKept by decide)]; rfl
  | ⟨2, _⟩ =>
    show gd.start _ _ (2 : Fin 5) + gd.offCoord _ (2 : Fin 5) = j.val
    rw [start_zero _ _ _ (show (2 : Fin 5) ∉ gd.startIndexMap by decide), Nat.zero_add]
    unfold GatherDims.offCoord; rw [dif_pos (show (2 : Fin 5) ∈ gd.sKept by decide)]; rfl
  | ⟨3, _⟩ =>
    show gd.start _ _ (3 : Fin 5) + gd.offCoord _ (3 : Fin 5) = k.val
    rw [GatherDims.offCoord_eq_zero _ _ _ (show (3 : Fin 5) ∉ gd.sKept by decide), Nat.add_zero]
    exact start_k b i j k _ (show (3 : Fin 5) ∈ gd.startIndexMap by decide) 0 (show List.idxOf (3 : Fin 5) gd.startIndexMap = 0 by decide)
  | ⟨4, _⟩ =>
    show gd.start _ _ (4 : Fin 5) + gd.offCoord _ (4 : Fin 5) = k.val
    rw [GatherDims.offCoord_eq_zero _ _ _ (show (4 : Fin 5) ∉ gd.sKept by decide), Nat.add_zero]
    exact start_k b i j k _ (show (4 : Fin 5) ∈ gd.startIndexMap by decide) 1 (show List.idxOf (4 : Fin 5) gd.startIndexMap = 1 by decide)

/-! ## The row maximum -/

/-- The row maximum. -/
theorem v22_apply (x0 : (⟨S4x128x128x32x32, .f32⟩ : BufTy).Contents (Elt Ideal)) (b : Fin 4) (i j : Fin 128) (k : Fin 32) :
    val_main_v22 (F := Ideal) x0 (ix4 b i j k) = Cert.Spec.rmax x0 b i j k := by
  have h : S4x128x128x32x32.Reduces [4] S4x128x128x32 := by decide
  unfold val_main_v22
  refine (Host.reduce_eq_fold_single (FloatOps.maximumf (F := Ideal) (φ := .f32)) x0 _ _ h _ (ix4 b i j k)).trans ?_
  unfold Cert.Spec.rmax Cert.Spec.ninf
  -- the index over (b, i, j, k) with l on the dropped axis is (b, i, j, k, l)
  have hl : x0 ∘ h.lift (ix4 b i j k) = fun l : Fin 32 => x0 (ix5 b i j k l) := by
    funext l
    show x0 (h.lift (ix4 b i j k) l) = x0 (ix5 b i j k l)
    congr 1
    funext c; refine Fin.ext ?_
    rw [h.lift_val]
    match c with
    | ⟨0, _⟩ => rfl
    | ⟨1, _⟩ => rfl
    | ⟨2, _⟩ => rfl
    | ⟨3, _⟩ => rfl
    | ⟨4, _⟩ => rfl
  rw [hl]
  rfl

/-! ## The off-diagonal bit -/

/-- The off-diagonal bit. -/
theorem v16_apply (i j : Fin 128) : val_main_v16 (F := Ideal) (ix2 i j) = if i = j then 0#1 else 1#1 := by
  rw [val_main_v16_apply, val_main_v15_apply, val_main_v14_apply, val_main_v11_apply, val_main_v13_apply,
    val_main_c_apply, val_main_v12_apply]
  show ~~~(IntOp.cmpi .eq (BitVec.ofNat 32 i.val + 0#32) (BitVec.ofNat 32 j.val)) = _
  rw [BitVec.add_zero]
  by_cases hij : i = j
  · subst hij
    rw [if_pos rfl, StableHlo.Predicate.cmpi_eq_iff.2 rfl]; rfl
  · rw [if_neg hij]
    have h0 : IntOp.cmpi .eq (BitVec.ofNat 32 i.val) (BitVec.ofNat 32 j.val) = 0#1 := by
      apply eq_zero_of_ne_one
      intro h
      have e := congrArg BitVec.toNat (StableHlo.Predicate.cmpi_eq_iff.1 h)
      simp only [BitVec.toNat_ofNat] at e
      exact hij (Fin.ext (by have := i.isLt; have := j.isLt; omega))
    rw [h0]; rfl

/-! ## Sums over an index set, coordinate by coordinate -/

/-- A rank-4 index set is the product of its four coordinate ranges. -/
private def idxEquiv4 {n0 n1 n2 n3 : Nat} : (⟨4, ![n0, n1, n2, n3]⟩ : Shape).Idx ≃ Fin n0 × Fin n1 × Fin n2 × Fin n3 where
  toFun q := (q 0, q 1, q 2, q 3)
  invFun p := ix4 p.1 p.2.1 p.2.2.1 p.2.2.2
  left_inv q := (eq_ix4 q).symm
  right_inv _ := rfl

/-- A rank-3 index set is the product of its three coordinate ranges. -/
private def idxEquiv3 {n0 n1 n2 : Nat} : (⟨3, ![n0, n1, n2]⟩ : Shape).Idx ≃ Fin n0 × Fin n1 × Fin n2 where
  toFun q := (q 0, q 1, q 2)
  invFun p := ix3 p.1 p.2.1 p.2.2
  left_inv q := (eq_ix3 q).symm
  right_inv _ := rfl

/-- Sums over a rank-4 and a rank-3 index type, coordinate by coordinate. -/
theorem sum_idx4 {M : Type*} [AddCommMonoid M] (f : S4x128x128x32.Idx → M) :
    ∑ q : S4x128x128x32.Idx, f q = ∑ b : Fin 4, ∑ i : Fin 128, ∑ j : Fin 128, ∑ k : Fin 32, f (ix4 b i j k) := by
  rw [← Equiv.sum_comp (idxEquiv4 (n0 := 4) (n1 := 128) (n2 := 128) (n3 := 32)).symm f]
  simp only [Fintype.sum_prod_type]
  rfl
theorem sum_idx3 {M : Type*} [AddCommMonoid M] (f : S4x128x128.Idx → M) :
    ∑ q : S4x128x128.Idx, f q = ∑ b : Fin 4, ∑ i : Fin 128, ∑ j : Fin 128, f (ix3 b i j) := by
  rw [← Equiv.sum_comp (idxEquiv3 (n0 := 4) (n1 := 128) (n2 := 128)).symm f]
  simp only [Fintype.sum_prod_type]
  rfl

/-! ## Counting the set bits of a mask -/

/-- A natural-number sum read in the extended reals is the sum of the terms read there. -/
private theorem coe_nat_sum {ι : Type} (S : Finset ι) (c : ι → ℕ) :
    (((∑ q ∈ S, c q : ℕ) : ℝ) : EReal) = ∑ q ∈ S, (((c q : ℕ) : ℝ) : EReal) := by
  classical
  induction S using Finset.induction_on with
  | empty => simp
  | insert a S ha ih => rw [Finset.sum_insert ha, Finset.sum_insert ha, Nat.cast_add, EReal.coe_add, ih]

/-- The 32-bit sum of the widened bits of a mask over EVERY index of a set of at most 2²¹ indices, read signed, is the
    sum of zeros and ones: the sum of the bits is at most the number of indices, so it neither wraps nor turns negative. -/
private theorem count_all {s : Shape} (hcard : Fintype.card s.Idx ≤ 2 ^ 21) (mask : IVec s 1) (hw : 1 < 32) (r : BitVec 32)
    (hr : r = (Finset.univ : Finset s.Idx).fold IntOp.addi 0#32 (extui 32 mask hw)) :
    (((r.toInt : ℝ)) : EReal) = ∑ q : s.Idx, (if mask q = 1#1 then (1 : EReal) else 0) := by
  classical
  have hval : ∀ q, (extui 32 mask hw q).toNat = if mask q = 1#1 then 1 else 0 := fun q =>
    StableHlo.Predicate.toNat_setWidth_bit (mask q)
  have hle : ∑ q : s.Idx, (extui 32 mask hw q).toNat ≤ 2 ^ 21 := by
    refine le_trans (Finset.sum_le_card_nsmul _ _ 1 fun q _ => ?_) (by simpa using hcard)
    rw [hval]; split <;> omega
  have hnat : r.toNat = ∑ q : s.Idx, (extui 32 mask hw q).toNat := by
    rw [hr, StableHlo.Predicate.toNat_fold_addi _ _ (lt_of_le_of_lt hle (by norm_num))]
  have hint : r.toInt = ((∑ q : s.Idx, (extui 32 mask hw q).toNat : ℕ) : ℤ) := by
    rw [StableHlo.Predicate.toInt_eq_toNat_of_lt (by rw [hnat]; exact lt_of_le_of_lt hle (by norm_num)), hnat]
  rw [hint, Int.cast_natCast, coe_nat_sum]
  refine Finset.sum_congr rfl fun q _ => ?_
  rw [hval]
  split <;> simp

/-- Counting the set bits of a [4,128,128,32] mask: the signed reading of the 32-bit sum of the widened bits is the
    sum of zeros and ones. -/
theorem count4 (mask : IVec S4x128x128x32 1) :
    (((Host.reduce IntOp.addi (extui 32 mask natLt_1_32) (constantI S_ 32 0#32) reducesTo_S4x128x128x32_S_d0_1_2_3 h_S_ ix0).toInt : ℝ) : EReal)
      = ∑ q : S4x128x128x32.Idx, (if mask q = 1#1 then (1 : EReal) else 0) := by
  classical
  refine count_all ?_ mask natLt_1_32 _ ?_
  · rw [Fintype.card_congr (idxEquiv4 (n0 := 4) (n1 := 128) (n2 := 128) (n3 := 32))]
    simp only [Fintype.card_prod, Fintype.card_fin]; norm_num
  · rw [Host.reduce_eq_fold]
    -- the result has rank 0: every index drops to its one index
    rw [Finset.filter_true_of_mem fun q _ => funext fun e => e.elim0]
    rfl
/-- The same for a [4,128,128] mask. -/
theorem count3 (mask : IVec S4x128x128 1) :
    (((Host.reduce IntOp.addi (extui 32 mask natLt_1_32) (constantI S_ 32 0#32) reducesTo_S4x128x128_S_d0_1_2 h_S_ ix0).toInt : ℝ) : EReal)
      = ∑ q : S4x128x128.Idx, (if mask q = 1#1 then (1 : EReal) else 0) := by
  classical
  refine count_all ?_ mask natLt_1_32 _ ?_
  · rw [Fintype.card_congr (idxEquiv3 (n0 := 4) (n1 := 128) (n2 := 128))]
    simp only [Fintype.card_prod, Fintype.card_fin]; norm_num
  · rw [Host.reduce_eq_fold]
    rw [Finset.filter_true_of_mem fun q _ => funext fun e => e.elim0]
    rfl

end Cert.ReferenceIdeal.RefValue

end
-- ==== Proof.RefLoss.lean ====
/-
  The reference's first result: -log (p^t (1 - p)^(1 - t)) with a binary label t and a finite p is -log p or
  -log (1 - p) (a real to the power 1 is itself, to the power 0 is 1), kept off the diagonal and summed.

  At (b, i, j, k) the summand is chosen by the off-diagonal bit: on the diagonal it is the constant 0; off it, with
  p the diagonal entry (a real by hypothesis) and t the label read as a signed integer (0 or 1 by hypothesis), it is
  -log (p^t · (1 - p)^(1 - t)).  For t = 1 this is -log (p · 1) = -log p, for t = 0 it is -log (1 · (1 - p)) =
  -log (1 - p): the cross-entropy of the label.  The sum starts from the word 0, which is the real 0, and the two
  quotients are those of the result.
-/
import proofs.«421995_j52424370815346_4_alg».proof.Proof.RefCommon
import proofs.«421995_j52424370815346_4_alg».proof.Proof.PreFacts
import Mathlib.Analysis.SpecialFunctions.Pow.Real

noncomputable section

namespace Cert.ReferenceIdeal.RefValue

open Idealize.ShloMosaic Idealize.ShloMosaic.ValueIdx Cert.ReferenceIdeal Cert.ReferenceIdeal.Gen Cert.ReferenceIdeal.Read

/-- The power of two reals is the real power. -/
private theorem pow_coe (x y : ℝ) : Ideal.pow (x : EReal) (y : EReal) = ((x ^ y : ℝ) : EReal) := rfl

/-- 1.0 minus a real is the real difference. -/
private theorem one_sub_coe (y : ℝ) : Cert.Spec.one - (y : EReal) = ((1 - y : ℝ) : EReal) := by
  rw [Cert.PreFacts.one_eq, EReal.coe_sub, EReal.coe_one]

/-- One summand off the diagonal: -log (p^t (1 - p)^(1 - t)) with p real and t ∈ {0, 1} is the cross-entropy of
    the label. -/
private theorem term_eq (p : EReal) (w : BitVec 32) (hp : ∃ r : ℝ, p = (r : EReal)) (hw : w = 0#32 ∨ w = 1#32) :
    -(Ideal.log (Ideal.pow p (((w.toInt : ℤ) : ℝ) : EReal)
        * Ideal.pow (Cert.Spec.one - p) (Cert.Spec.one - (((w.toInt : ℤ) : ℝ) : EReal))))
      = if w = 1#32 then -(Ideal.log p) else -(Ideal.log (Cert.Spec.one - p)) := by
  obtain ⟨r, rfl⟩ := hp
  rw [one_sub_coe, one_sub_coe, pow_coe, pow_coe, ← EReal.coe_mul]
  rcases hw with rfl | rfl
  · have ht : (((0#32 : BitVec 32).toInt : ℤ) : ℝ) = 0 := by norm_num
    rw [if_neg (by decide), ht, Real.rpow_zero, sub_zero, Real.rpow_one, one_mul]
  · have ht : (((1#32 : BitVec 32).toInt : ℤ) : ℝ) = 1 := by norm_num
    rw [if_pos rfl, ht, Real.rpow_one, sub_self, Real.rpow_zero, mul_one]

/-- The signed reading of a word, as an extended real. -/
private theorem sitofp_eq (w : BitVec 32) : FloatOps.sitofp (F := Ideal) .f32 w = (((w.toInt : ℤ) : ℝ) : EReal) := rfl

/-- The off-diagonal bit, broadcast along batch and label position, is read at (i, j). -/
private theorem off_index (b : Fin 4) (i j : Fin 128) (k : Fin 32) :
    idx_main_v17 (idx_main_call1_v1 (ix4 b i j k)) = ix2 i j := by
  funext a
  match a with
  | ⟨0, _⟩ => rfl
  | ⟨1, _⟩ => rfl

/-- The summand at (b, i, j, k). -/
private theorem v18_eq (x0 : (⟨S4x128x128x32x32, .f32⟩ : BufTy).Contents (Elt Ideal)) (x1 : (⟨S4x128x128x32, .i32⟩ : BufTy).Contents (Elt Ideal))
    (hbin : ∀ q, x1 q = 0#32 ∨ x1 q = 1#32) (hfin : ∀ q, ∃ r : ℝ, x0 q = (r : EReal))
    (b : Fin 4) (i j : Fin 128) (k : Fin 32) :
    val_main_v18 (F := Ideal) x0 x1 (ix4 b i j k) = Cert.Spec.t0 x0 x1 b i j k := by
  rw [val_main_v18_apply, val_main_call1_v1_apply, val_main_v17_apply, off_index, v16_apply]
  unfold Cert.Spec.t0
  by_cases h : i = j
  · rw [if_pos h, if_pos h, select_zero, val_main_call1_v2_apply, val_main_call1_v0_apply, val_main_cst_1_apply,
      Ideal.ofBits_def, Ideal.ofBits_zero_f32]
  · rw [if_neg h, if_neg h, select_one, val_main_v10_apply, val_main_v9_apply, val_main_v8_apply, val_main_v2_apply,
      val_main_v7_apply, val_main_v4_apply, val_main_v6_apply, val_main_v3_apply, val_main_v5_apply, val_main_cst_apply,
      val_main_cst_0_apply, val_main_v0_apply, v1_apply, Ideal.hostNegf_def, Ideal.negf_def, Ideal.hostUnary_log_def,
      Ideal.mulf_def, Ideal.hostPowf_def, Ideal.hostPowf_def, Ideal.subf_def, Ideal.subf_def, Ideal.ofBits_def, sitofp_eq]
    exact term_eq (Cert.Spec.dg x0 b i j k) (x1 (ix4 b i j k)) (hfin _) (hbin _)

theorem ref_loss (x0 : (⟨S4x128x128x32x32, .f32⟩ : BufTy).Contents (Elt Ideal)) (x1 : (⟨S4x128x128x32, .i32⟩ : BufTy).Contents (Elt Ideal))
    (hbin : ∀ q, x1 q = 0#32 ∨ x1 q = 1#32) (hfin : ∀ q, ∃ r : ℝ, x0 q = (r : EReal)) :
    val_main_v21 (F := Ideal) x0 x1 = fun _ => Cert.Spec.LOSS x0 x1 := by
  funext q
  have hsum : ∑ p : S4x128x128x32.Idx, val_main_v18 (F := Ideal) x0 x1 p = Cert.Spec.S0 x0 x1 := by
    rw [sum_idx4]
    unfold Cert.Spec.S0
    exact Finset.sum_congr rfl fun b _ => Finset.sum_congr rfl fun i _ => Finset.sum_congr rfl fun j _ =>
      Finset.sum_congr rfl fun k _ => v18_eq x0 x1 hbin hfin b i j k
  rw [val_main_v21_apply, val_main_v20_apply, val_main_v19_apply, val_main_cst_4_apply, val_main_cst_3_apply,
    val_main_cst_2_apply, hsum, Ideal.hostDivf_def, Ideal.hostDivf_def, Ideal.ofBits_def, Ideal.ofBits_def, Ideal.ofBits_def,
    Ideal.ofBits_zero_f32, zero_add]
  rfl

end Cert.ReferenceIdeal.RefValue

end
-- ==== Proof.RefSingle.lean ====
/-
  The reference's second result: the count of off-diagonal positive labels whose diagonal entry attains the row
  maximum, over the count of off-diagonal positive labels.

  Each count is the signed reading of a 32-bit sum of widened mask bits, hence a sum of zeros and ones over
  (b, i, j, k).  The mask bit of the denominator is (label = 1) ∧ (i ≠ j); that of the numerator is
  ((diagonal = row maximum) ∧ (label = 1)) ∧ (i ≠ j).  A conjunction of two bits is 1 exactly when both are, an
  integer comparison bit is 1 exactly when the words agree, and the comparison of two extended reals is 1 exactly
  when they are equal; so the two sums are S1 and S2 term by term.
-/
import proofs.«421995_j52424370815346_4_alg».proof.Proof.RefCommon

noncomputable section

namespace Cert.ReferenceIdeal.RefValue

open Idealize.ShloMosaic Idealize.ShloMosaic.ValueIdx Cert.ReferenceIdeal Cert.ReferenceIdeal.Gen Cert.ReferenceIdeal.Read

/-- A conjunction of two bits is 1 exactly when both are. -/
private theorem andi_bit_iff (a c : BitVec 1) : IntOp.andi a c = 1#1 ↔ a = 1#1 ∧ c = 1#1 := by
  unfold IntOp.andi
  revert a c
  decide

/-- The equality bit of two extended reals is 1 exactly when they are equal. -/
private theorem cmpf_oeq_iff (a c : EReal) : FloatOps.cmpf (F := Ideal) (φ := .f32) .oeq a c = 1#1 ↔ a = c := by
  show BitVec.ofBool (decide (a = c)) = 1#1 ↔ a = c
  by_cases h : a = c
  · rw [decide_eq_true h]; exact ⟨fun _ => h, fun _ => rfl⟩
  · rw [decide_eq_false h]; exact ⟨fun h' => absurd h' (by decide), fun h' => absurd h' h⟩

/-- The off-diagonal bit, broadcast along batch and label position, read at (b, i, j, k): it is 1 exactly off the
    diagonal. -/
private theorem off_index (b : Fin 4) (i j : Fin 128) (k : Fin 32) :
    idx_main_v17 (idx_main_v26 (ix4 b i j k)) = ix2 i j := by
  funext a
  match a with
  | ⟨0, _⟩ => rfl
  | ⟨1, _⟩ => rfl

private theorem v26_iff (b : Fin 4) (i j : Fin 128) (k : Fin 32) :
    val_main_v26 (F := Ideal) (ix4 b i j k) = 1#1 ↔ i ≠ j := by
  rw [val_main_v26_apply, val_main_v17_apply, off_index, v16_apply]
  by_cases h : i = j
  · simp only [h, if_true, ne_eq, not_true_eq_false, iff_false]; decide
  · simp only [h, if_false, ne_eq, not_false_eq_true]

private theorem v31_iff (b : Fin 4) (i j : Fin 128) (k : Fin 32) :
    val_main_v31 (F := Ideal) (ix4 b i j k) = 1#1 ↔ i ≠ j := v26_iff b i j k

/-- The label bit: the label word is 1. -/
private theorem v25_iff (x1 : (⟨S4x128x128x32, .i32⟩ : BufTy).Contents (Elt Ideal)) (q : S4x128x128x32.Idx) :
    val_main_v25 (F := Ideal) x1 q = 1#1 ↔ x1 q = 1#32 := by
  rw [val_main_v25_apply, val_main_v24_apply, val_main_c_6_apply]
  exact StableHlo.Predicate.cmpi_eq_iff

/-- The denominator's mask bit. -/
private theorem v27_iff (x1 : (⟨S4x128x128x32, .i32⟩ : BufTy).Contents (Elt Ideal)) (b : Fin 4) (i j : Fin 128) (k : Fin 32) :
    val_main_v27 (F := Ideal) x1 (ix4 b i j k) = 1#1 ↔ (i ≠ j ∧ x1 (ix4 b i j k) = 1#32) := by
  rw [val_main_v27_apply, andi_bit_iff, v25_iff, v26_iff]
  exact and_comm

/-- The numerator's mask bit. -/
private theorem v32_iff (x0 : (⟨S4x128x128x32x32, .f32⟩ : BufTy).Contents (Elt Ideal)) (x1 : (⟨S4x128x128x32, .i32⟩ : BufTy).Contents (Elt Ideal))
    (b : Fin 4) (i j : Fin 128) (k : Fin 32) :
    val_main_v32 (F := Ideal) x0 x1 (ix4 b i j k) = 1#1
      ↔ (i ≠ j ∧ x1 (ix4 b i j k) = 1#32 ∧ Cert.Spec.dg x0 b i j k = Cert.Spec.rmax x0 b i j k) := by
  rw [val_main_v32_apply, andi_bit_iff, val_main_v30_apply, andi_bit_iff, v25_iff, v31_iff, val_main_v23_apply,
    cmpf_oeq_iff, v1_apply, v22_apply]
  constructor
  · rintro ⟨⟨h1, h2⟩, h3⟩; exact ⟨h3, h2, h1⟩
  · rintro ⟨h3, h2, h1⟩; exact ⟨⟨h1, h2⟩, h3⟩

/-- The denominator: the number of off-diagonal positive labels. -/
private theorem den_eq (x1 : (⟨S4x128x128x32, .i32⟩ : BufTy).Contents (Elt Ideal)) :
    FloatOps.sitofp (F := Ideal) .f32 (val_main_v29 (F := Ideal) x1 ix0) = Cert.Spec.S1 x1 := by
  refine (count4 (val_main_v27 (F := Ideal) x1)).trans ?_
  rw [sum_idx4]
  unfold Cert.Spec.S1 Cert.Spec.t1
  refine Finset.sum_congr rfl fun b _ => Finset.sum_congr rfl fun i _ => Finset.sum_congr rfl fun j _ =>
    Finset.sum_congr rfl fun k _ => ?_
  exact if_congr (v27_iff x1 b i j k) rfl rfl

/-- The numerator: the number of off-diagonal positive labels whose diagonal entry attains the row maximum. -/
private theorem num_eq (x0 : (⟨S4x128x128x32x32, .f32⟩ : BufTy).Contents (Elt Ideal)) (x1 : (⟨S4x128x128x32, .i32⟩ : BufTy).Contents (Elt Ideal)) :
    FloatOps.sitofp (F := Ideal) .f32 (val_main_v34 (F := Ideal) x0 x1 ix0) = Cert.Spec.S2 x0 x1 := by
  refine (count4 (val_main_v32 (F := Ideal) x0 x1)).trans ?_
  rw [sum_idx4]
  unfold Cert.Spec.S2 Cert.Spec.t2
  refine Finset.sum_congr rfl fun b _ => Finset.sum_congr rfl fun i _ => Finset.sum_congr rfl fun j _ =>
    Finset.sum_congr rfl fun k _ => ?_
  exact if_congr (v32_iff x0 x1 b i j k) rfl rfl

theorem ref_single (x0 : (⟨S4x128x128x32x32, .f32⟩ : BufTy).Contents (Elt Ideal)) (x1 : (⟨S4x128x128x32, .i32⟩ : BufTy).Contents (Elt Ideal)) :
    val_main_v37 (F := Ideal) x0 x1 = fun _ => Cert.Spec.SACC x0 x1 := by
  funext q
  obtain rfl : q = ix0 := eq_ix0 q
  rw [val_main_v37_apply, val_main_v35_apply, val_main_v36_apply, num_eq, den_eq, Ideal.hostDivf_def]
  rfl

end Cert.ReferenceIdeal.RefValue

end
-- ==== Proof.RefMulti.lean ====
/-
  The reference's third result: the count of off-diagonal pairs all of whose 32 positions agree ("diagonal entry
  attains the row maximum" exactly when the label is 1), over 65024.

  The count is a sum of zeros and ones over the pairs (b, i, j).  The bit of a pair is the conjunction of two bits:
  the conjunction over the 32 positions k of the agreement bit at (b, i, j, k), and the off-diagonal bit of (i, j).
  A conjunction of one-bit words started at 1 is 1 exactly when every word is 1; two one-bit words are equal exactly
  when one is 1 iff the other is; so the pair's bit is 1 exactly when i ≠ j and, at every k, the diagonal entry equals
  the row maximum iff the label is 1.
-/
import proofs.«421995_j52424370815346_4_alg».proof.Proof.RefCommon
import Idealize.ShloMosaic.PureOps.Reduce
import Idealize.ShloMosaic.Lib.Affine

noncomputable section

namespace Cert.ReferenceIdeal.RefValue

open Idealize.ShloMosaic Idealize.ShloMosaic.ValueIdx Cert.ReferenceIdeal Cert.ReferenceIdeal.Gen Cert.ReferenceIdeal.Read

/-- A fold of `and` from 1 over one-bit words is 1 exactly when every word is 1. -/
private theorem fold_andi_eq_one_iff {ι : Type} (S : Finset ι) (f : ι → BitVec 1) :
    S.fold IntOp.andi 1#1 f = 1#1 ↔ ∀ k ∈ S, f k = 1#1 := by
  induction S using Finset.cons_induction with
  | empty => simp
  | cons a S ha ih =>
    rw [Finset.fold_cons, IntOp.andi_eq_one, ih]
    simp only [Finset.mem_cons, forall_eq_or_imp]

/-- Two one-bit words are equal exactly when one is 1 iff the other is. -/
private theorem bit_eq_iff (c d : BitVec 1) : c = d ↔ (c = 1#1 ↔ d = 1#1) := by
  revert c d; decide

/-- The ordered-equal comparison of two extended reals is 1 exactly when they are equal. -/
private theorem cmpf_oeq_eq_one_iff (a b : Ideal .f32) : FloatOps.cmpf .oeq a b = 1#1 ↔ a = b := by
  show Ideal.cmp .oeq a b = 1#1 ↔ a = b
  unfold Ideal.cmp
  by_cases hab : a = b
  · rw [decide_eq_true hab]; exact ⟨fun _ => hab, fun _ => rfl⟩
  · rw [decide_eq_false hab]
    exact ⟨fun e => absurd (show BitVec.ofBool false = 1#1 from e) (by decide), fun e => absurd e hab⟩

/-- The index (b, i, j) with k inserted on the last axis is (b, i, j, k). -/
private theorem lift3 (h : S4x128x128x32.Reduces [3] S4x128x128) (b : Fin 4) (i j : Fin 128) (k : Fin 32) :
    h.lift (ix3 b i j) k = ix4 b i j k := by
  funext c
  apply Fin.ext
  match c with
  | ⟨0, _⟩ => rfl
  | ⟨1, _⟩ => rfl
  | ⟨2, _⟩ => rfl
  | ⟨3, _⟩ => rfl

/-- The agreement bit at one position: 1 exactly when "the diagonal entry is the row maximum" iff "the label is 1". -/
private theorem v38_eq_one_iff (x0 : (⟨S4x128x128x32x32, .f32⟩ : BufTy).Contents (Elt Ideal))
    (x1 : (⟨S4x128x128x32, .i32⟩ : BufTy).Contents (Elt Ideal)) (b : Fin 4) (i j : Fin 128) (k : Fin 32) :
    val_main_v38 (F := Ideal) x0 x1 (ix4 b i j k) = 1#1
      ↔ (Cert.Spec.dg x0 b i j k = Cert.Spec.rmax x0 b i j k ↔ x1 (ix4 b i j k) = 1#32) := by
  rw [val_main_v38_apply, IntOp.cmpi_eq, val_main_v23_apply, val_main_v25_apply, val_main_v24_apply, val_main_c_6_apply,
    v1_apply, v22_apply, bit_eq_iff, cmpf_oeq_eq_one_iff, IntOp.cmpi_eq]

/-- The conjunction over the 32 positions of a pair. -/
private theorem v39_eq_one_iff (x0 : (⟨S4x128x128x32x32, .f32⟩ : BufTy).Contents (Elt Ideal))
    (x1 : (⟨S4x128x128x32, .i32⟩ : BufTy).Contents (Elt Ideal)) (b : Fin 4) (i j : Fin 128) :
    val_main_v39 (F := Ideal) x0 x1 (ix3 b i j) = 1#1
      ↔ ∀ k : Fin 32, val_main_v38 (F := Ideal) x0 x1 (ix4 b i j k) = 1#1 := by
  have h : S4x128x128x32.Reduces [3] S4x128x128 := by decide
  unfold val_main_v39
  rw [Host.reduce_eq_fold_single IntOp.andi _ _ reducesTo_S4x128x128x32_S4x128x128_d3 h h_S_ (ix3 b i j),
    show val_main_c_9 (F := Ideal) (Shape.Idx.first h_S_) = 1#1 from rfl, fold_andi_eq_one_iff]
  constructor
  · intro H k
    have e : val_main_v38 (F := Ideal) x0 x1 (h.lift (ix3 b i j) k) = 1#1 := H k (Finset.mem_univ _)
    rwa [lift3] at e
  · intro H k _
    have e := H k
    rw [← lift3 h b i j k] at e
    exact e

/-- The off-diagonal bit of a pair, broadcast over the batch. -/
private theorem v41_eq_one_iff (b : Fin 4) (i j : Fin 128) : val_main_v41 (F := Ideal) (ix3 b i j) = 1#1 ↔ i ≠ j := by
  rw [val_main_v41_apply, val_main_v40_apply,
    show idx_main_v40 (idx_main_v41 (ix3 b i j)) = ix2 i j from funext fun a => match a with
      | ⟨0, _⟩ => rfl
      | ⟨1, _⟩ => rfl,
    v16_apply]
  by_cases hij : i = j
  · rw [if_pos hij]; exact ⟨fun e => absurd e (by decide), fun e => absurd hij e⟩
  · rw [if_neg hij]; exact ⟨fun _ => hij, fun _ => rfl⟩

/-- The bit of a pair: off the diagonal, and agreeing at every position. -/
private theorem v42_eq_one_iff (x0 : (⟨S4x128x128x32x32, .f32⟩ : BufTy).Contents (Elt Ideal))
    (x1 : (⟨S4x128x128x32, .i32⟩ : BufTy).Contents (Elt Ideal)) (b : Fin 4) (i j : Fin 128) :
    val_main_v42 (F := Ideal) x0 x1 (ix3 b i j) = 1#1
      ↔ i ≠ j ∧ ∀ k : Fin 32, (Cert.Spec.dg x0 b i j k = Cert.Spec.rmax x0 b i j k ↔ x1 (ix4 b i j k) = 1#32) := by
  rw [val_main_v42_apply, IntOp.andi_eq_one, v39_eq_one_iff, v41_eq_one_iff, and_comm]
  exact and_congr_right fun _ => forall_congr' fun k => v38_eq_one_iff x0 x1 b i j k

theorem ref_multi (x0 : (⟨S4x128x128x32x32, .f32⟩ : BufTy).Contents (Elt Ideal)) (x1 : (⟨S4x128x128x32, .i32⟩ : BufTy).Contents (Elt Ideal)) :
    val_main_v46 (F := Ideal) x0 x1 = fun _ => Cert.Spec.MACC x0 x1 := by
  funext q
  rw [val_main_v46_apply, val_main_v45_apply, val_main_cst_11_apply, eq_ix0 q]
  show Ideal.div ((((val_main_v44 (F := Ideal) x0 x1 ix0).toInt : ℝ) : EReal)) (Ideal.ofBits .f32 0x477E0000#32)
    = Ideal.div (Cert.Spec.S3 x0 x1) (Ideal.ofBits .f32 0x477E0000#32)
  refine congrArg (fun z => Ideal.div z (Ideal.ofBits .f32 0x477E0000#32)) ?_
  -- the count of set bits is the sum of zeros and ones, pair by pair
  refine (count3 (val_main_v42 (F := Ideal) x0 x1)).trans ?_
  rw [sum_idx3]
  unfold Cert.Spec.S3
  refine Finset.sum_congr rfl fun b _ => Finset.sum_congr rfl fun i _ => Finset.sum_congr rfl fun j _ => ?_
  unfold Cert.Spec.t3
  have hiff := v42_eq_one_iff x0 x1 b i j
  by_cases hc : val_main_v42 (F := Ideal) x0 x1 (ix3 b i j) = 1#1
  · rw [if_pos hc, if_pos (hiff.1 hc)]
  · rw [if_neg hc, if_neg (mt hiff.2 hc)]

end Cert.ReferenceIdeal.RefValue

end
-- ==== Proof.lean ====
/-
  The certificate's five claims.

  The kernel streams a [4,128,128,32,32] array of probabilities and a [4,128,128,32] array of binary labels through 32
  grid points and accumulates four totals over the off-diagonal pairs: the summed binary cross-entropy of the
  diagonal entries, the number of positive labels, the number of positive labels whose diagonal entry attains its
  row's maximum, and the number of pairs all of whose 32 positions are predicted correctly; the host divides.  The
  reference computes the same three quotients with whole-array operations, writing the cross-entropy as
  -log (p^t (1 - p)^(1 - t)) and counting with integer sums.

  Over the extended reals, for finite probabilities and labels in {0, 1}, both are the specification's `LOSS`,
  `SACC` and `MACC` (Proof/Spec.lean): a binary label makes t·(-log p) + (1 - t)·(-log (1 - p)) and
  -log (p^t (1 - p)^(1 - t)) the same branch of one case distinction, a label as a real is its own indicator,
  sums may be regrouped freely, and a count of set bits below 2³¹ is the sum of zeros and ones.
  The frames are the generated ones; the idealization rewrote nothing.
-/
import proofs.«421995_j52424370815346_4_alg».proof.Defs
import proofs.«421995_j52424370815346_4_alg».proof.Proof.Gen.Kernel
import proofs.«421995_j52424370815346_4_alg».proof.Proof.Gen.Kernel.Skeleton
import proofs.«421995_j52424370815346_4_alg».proof.Proof.Gen.Kernel.Launch
import proofs.«421995_j52424370815346_4_alg».proof.Proof.Gen.Kernel.Points
import proofs.«421995_j52424370815346_4_alg».proof.Proof.Gen.Kernel.Frame
import proofs.«421995_j52424370815346_4_alg».proof.Proof.Gen.KernelIdeal
import proofs.«421995_j52424370815346_4_alg».proof.Proof.Gen.KernelIdeal.Skeleton
import proofs.«421995_j52424370815346_4_alg».proof.Proof.Gen.KernelIdeal.Launch
import proofs.«421995_j52424370815346_4_alg».proof.Proof.Gen.KernelIdeal.Points
import proofs.«421995_j52424370815346_4_alg».proof.Proof.Gen.KernelIdeal.Frame
import proofs.«421995_j52424370815346_4_alg».proof.Proof.Gen.ReferenceIdeal
import proofs.«421995_j52424370815346_4_alg».proof.Proof.Gen.ReferenceIdeal.Run
import proofs.«421995_j52424370815346_4_alg».proof.Proof.Gen.ReferenceIdeal.Read
import proofs.«421995_j52424370815346_4_alg».proof.Proof.Gen.Pre_finite_inputs
import proofs.«421995_j52424370815346_4_alg».proof.Proof.PreFacts
import proofs.«421995_j52424370815346_4_alg».proof.Proof.KRun
import proofs.«421995_j52424370815346_4_alg».proof.Proof.RefLoss
import proofs.«421995_j52424370815346_4_alg».proof.Proof.RefSingle
import proofs.«421995_j52424370815346_4_alg».proof.Proof.RefMulti
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- Both programs end at the specification's three numbers of the same arguments. -/
theorem algebraic : Cert.algebraic_KernelIdeal_ReferenceIdeal := by
  intro m ρ m' ρ' hpre hagree
  have hb : ∀ c : Dev Cert.KernelIdeal.nD, ∀ q, Cert.KernelIdeal.KValue.gA m c q = 0#32 ∨ Cert.KernelIdeal.KValue.gA m c q = 1#32 :=
    fun c => Cert.PreFacts.binary_of_pre _ _ (hpre c)
  have hf : ∀ c : Dev Cert.KernelIdeal.nD, ∀ q, ∃ r : ℝ, Cert.KernelIdeal.KValue.xA m c q = (r : EReal) :=
    fun c => Cert.PreFacts.finite_of_pre _ _ (hpre c)
  refine ⟨fun c _ => Cert.Spec.LOSS (Cert.KernelIdeal.KValue.xA m c) (Cert.KernelIdeal.KValue.gA m c),
    fun c _ => Cert.Spec.SACC (Cert.KernelIdeal.KValue.xA m c) (Cert.KernelIdeal.KValue.gA m c),
    fun c _ => Cert.Spec.MACC (Cert.KernelIdeal.KValue.xA m c) (Cert.KernelIdeal.KValue.gA m c),
    Cert.KernelIdeal.KValue.run m ρ hb, ?_⟩
  refine (θ_run Cert.ReferenceIdeal.defs _ _).mono (fun _ h c => ?_) (Cert.ReferenceIdeal.Value.run (F := Ideal) m' ρ')
  obtain ⟨h1, h2, h3, h4, h5⟩ := h c
  refine ⟨h1.trans ?_, h2.trans ?_, h3.trans ?_, h4, h5⟩
  · rw [(hagree c).1, (hagree c).2]
    exact (Cert.ReferenceIdeal.Read.val_main_v21_eq _ _).trans (Cert.ReferenceIdeal.RefValue.ref_loss _ _ (hb c) (hf c))
  · rw [(hagree c).1, (hagree c).2]
    exact (Cert.ReferenceIdeal.Read.val_main_v37_eq _ _).trans (Cert.ReferenceIdeal.RefValue.ref_single _ _)
  · rw [(hagree c).1, (hagree c).2]
    exact (Cert.ReferenceIdeal.Read.val_main_v46_eq _ _).trans (Cert.ReferenceIdeal.RefValue.ref_multi _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
